-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  let main_v40 : IVec S1x800000 32 := (extractStridedSlice S1x800000 ![0, 0] · slices_S2x800000_S1x800000_0_0) main_arg1
  let main_v41 : IVec S800000 32 := shapeCast S800000 main_v40 shapeCasts_S1x800000_S800000
  let main_c_14 : IVec S_ 32 := constantI S_ 32 50000#32
  let main_v42 : IVec S800000 32 := broadcastInDim S800000 ![] bcast_S_S800000 main_c_14
  let main_v43 : IVec S800000 1 := cmpi .slt main_v41 main_v42
  let main_c_15 : IVec S_ 1 := constantI S_ 1 1#1
  let main_v44 : IVec S_ 1 := (fun x v => Host.reduce IntOp.andi x v reducesTo_S800000_S_d0 h_S_) main_v43 main_c_15
  let main_v45 : IVec S_ 1 := andi main_v39 main_v44
  main_v45

def fn_part1 {F : FTy → Type} [FloatOps F] (main_arg1 : IVec S2x800000 32) (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S1 : Shape := ⟨1, ![1]⟩
abbrev S1x1 : Shape := ⟨2, ![1, 1]⟩
abbrev S850000x256 : Shape := ⟨2, ![850000, 256]⟩
abbrev S1x256 : Shape := ⟨2, ![1, 256]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 147
  | .vmem => 30
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x256, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S1, .i32⟩
  | 58 => ⟨S_, .i32⟩
  | 59 => ⟨S850000x1, .i32⟩
  | 60 => ⟨S850000x1, .i1⟩
  | 61 => ⟨S1x1, .i32⟩
  | 62 => ⟨S850000x1, .i32⟩
  | 63 => ⟨S850000x1, .i1⟩
  | 64 => ⟨S850000x1, .i1⟩
  | 65 => ⟨S_, .i1⟩
  | 66 => ⟨S850000, .i1⟩
  | 67 => ⟨S850000x256, .f32⟩
  | 68 => ⟨S850000x256, .i1⟩
  | 69 => ⟨S_, .f32⟩
  | 70 => ⟨S850000x256, .f32⟩
  | 71 => ⟨S850000x256, .f32⟩
  | 72 => ⟨S850000x1, .f32⟩
  | 73 => ⟨S850000x256, .f32⟩
  | 74 => ⟨S850000x256, .f32⟩
  | 75 => ⟨S_, .f32⟩
  | 76 => ⟨S50000x256, .f32⟩
  | 77 => ⟨S850000x1, .i32⟩
  | 78 => ⟨S50000x256, .f32⟩
  | 79 => ⟨S1x256, .f32⟩
  | 80 => ⟨S50000x256, .f32⟩
  | 81 => ⟨S50000x256, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S1, .i32⟩
  | 91 => ⟨S_, .i32⟩
  | 92 => ⟨S850000x1, .i32⟩
  | 93 => ⟨S850000x1, .i1⟩
  | 94 => ⟨S1x1, .i32⟩
  | 95 => ⟨S850000x1, .i32⟩
  | 96 => ⟨S850000x1, .i1⟩
  | 97 => ⟨S850000x1, .i1⟩
  | 98 => ⟨S_, .i1⟩
  | 99 => ⟨S850000, .i1⟩
  | 100 => ⟨S850000x256, .f32⟩
  | 101 => ⟨S850000x256, .i1⟩
  | 102 => ⟨S_, .f32⟩
  | 103 => ⟨S850000x256, .f32⟩
  | 104 => ⟨S850000x256, .f32⟩
  | 105 => ⟨S850000x1, .f32⟩
  | 106 => ⟨S850000x256, .f32⟩
  | 107 => ⟨S850000x256, .f32⟩
  | 108 => ⟨S_, .f32⟩
  | 109 => ⟨S50000x256, .f32⟩
  | 110 => ⟨S850000x1, .i32⟩
  | 111 => ⟨S50000x256, .f32⟩
  | 112 => ⟨S1x256, .f32⟩
  | 113 => ⟨S50000x256, .f32⟩
  | 114 => ⟨S50000x64, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S1, .i32⟩
  | 124 => ⟨S_, .i32⟩
  | 125 => ⟨S850000x1, .i32⟩
  | 126 => ⟨S850000x1, .i1⟩
  | 127 => ⟨S1x1, .i32⟩
  | _ => ⟨S50000x256, .f32⟩

abbrev hbmTy0_1 (i : Nat) : BufTy := match i % 128 with
  | 0 => ⟨S850000x1, .i32⟩
  | 1 => ⟨S850000x1, .i1⟩
  | 2 => ⟨S850000x1, .i1⟩
  | 3 => ⟨S_, .i1⟩
  | 4 => ⟨S850000, .i1⟩
  | 5 => ⟨S850000x64, .f32⟩
  | 6 => ⟨S850000x64, .i1⟩
  | 7 => ⟨S_, .f32⟩
  | 8 => ⟨S850000x64, .f32⟩
  | 9 => ⟨S850000x64, .f32⟩
  | 10 => ⟨S850000x1, .f32⟩
  | 11 => ⟨S850000x64, .f32⟩
  | 12 => ⟨S850000x64, .f32⟩
  | 13 => ⟨S_, .f32⟩
  | 14 => ⟨S50000x64, .f32⟩
  | 15 => ⟨S850000x1, .i32⟩
  | 16 => ⟨S50000x64, .f32⟩
  | 17 => ⟨S1x64, .f32⟩
  | 18 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_6 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_7 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_cst_8 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x256_0 : S850000.BroadcastsInDim S850000x256 (![0] : Fin 1 → Fin S850000x256.rank)
  bcast_S_S850000x256 : S_.BroadcastsInDim S850000x256 (![] : Fin 0 → Fin S850000x256.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000_S850000x64_0 : S850000.BroadcastsInDim S850000x64 (![0] : Fin 1 → Fin S850000x64.rank)
  bcast_S_S850000x64 : S_.BroadcastsInDim S850000x64 (![] : Fin 0 → Fin S850000x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v49) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x256, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x256, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x256, .f32⟩
  | 81 => ⟨S850000x1, .f32⟩
  | 82 => ⟨S850000x256, .f32⟩
  | 83 => ⟨S850000x256, .f32⟩
  | 84 => ⟨S_, .f32⟩
  | 85 => ⟨S50000x256, .f32⟩
  | 86 => ⟨S850000x1, .i32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S50000x64, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x64, .f32⟩
  | 104 => ⟨S850000x1, .f32⟩
  | 105 => ⟨S850000x64, .f32⟩
  | 106 => ⟨S850000x64, .f32⟩
  | 107 => ⟨S_, .f32⟩
  | 108 => ⟨S50000x64, .f32⟩
  | 109 => ⟨S850000x1, .i32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S_, .f32⟩
  | 124 => ⟨S50000, .f32⟩
  | 125 => ⟨S50000x1, .f32⟩
  | 126 => ⟨S50000x1, .f32⟩
  | 127 => ⟨S50000x64, .f32⟩
  | _ => ⟨S50000x256, .f32⟩

abbrev hbmTy0_1 (i : Nat) : BufTy := match i % 128 with
  | 0 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Stages.lean ====
/-
  The graph-convolution network both programs compute, as a handful of functions of whole arrays, spelt with the
  reference program's own operations: the edge list with one self-loop per node appended (`src`, `dst`), the
  symmetric normalisation `norm e = dinv (src e) · dinv (dst e)` with `dinv = deg^(-1/2)` of the in-degree
  (`0` where the degree is `0`), one propagation `agg = Σ_{e : dst e = n} norm e · h (src e)` as a gather of
  rows, a scaling and a scatter-add, and the three layers `relu (agg (x·W) + b)`, again, and
  `log_softmax (agg (h·W₂) + b₂)` along the class axis.
-/
import proofs.«412483_j87093346828457_1_alg».proof.ReferenceIdeal
import proofs.«412483_j87093346828457_1_alg».proof.Proof.Gen.ReferenceIdeal
import Idealize.ShloMosaic.PureOps.Ideal

noncomputable section

namespace Cert.Stages

open Idealize.ShloMosaic Cert.ReferenceIdeal Cert.ReferenceIdeal.Gen

/-- The contents of a buffer of the given shape and element type. -/
abbrev Arr (F : FTy → Type) (T : BufTy) := T.Contents (Elt F)

variable {F : FTy → Type} [FloatOps F]

/-- Row `r` of the edge list (`r = 0`: sources, `r = 1`: destinations) as a vector of 800000 node ids. -/
def edgeRow0 (ei : Arr F ⟨S2x800000, .i32⟩) : Arr F ⟨S800000, .i32⟩ :=
  shapeCast _ (extractStridedSlice S1x800000 ![0, 0] ei slices_S2x800000_S1x800000_0_0) shapeCasts_S1x800000_S800000
def edgeRow1 (ei : Arr F ⟨S2x800000, .i32⟩) : Arr F ⟨S800000, .i32⟩ :=
  shapeCast _ (extractStridedSlice S1x800000 ![1, 0] ei slices_S2x800000_S1x800000_1_0) shapeCasts_S1x800000_S800000

/-- The sources of the 850000 messages: the edges' sources, then one self-loop per node. -/
def src (ei : Arr F ⟨S2x800000, .i32⟩) : Arr F ⟨S850000, .i32⟩ :=
  concatenate S850000 0 [⟨S800000, edgeRow0 ei⟩, ⟨S50000, (iotaInDim S50000 32 0)⟩] concatenates_S800000_S50000_S850000_d0
/-- Their destinations. -/
def dst (ei : Arr F ⟨S2x800000, .i32⟩) : Arr F ⟨S850000, .i32⟩ :=
  concatenate S850000 0 [⟨S800000, edgeRow1 ei⟩, ⟨S50000, (iotaInDim S50000 32 0)⟩] concatenates_S800000_S50000_S850000_d0

/-- A node id read the numpy way: a negative id counts from the end. As a column of start indices. -/
def wrap (idx : Arr F ⟨S850000, .i32⟩) : Arr F ⟨S850000x1, .i32⟩ :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

/-- The in-degree of every node, self-loops counted. -/
def deg (ei : Arr F ⟨S2x800000, .i32⟩) : Arr F ⟨S50000, .f32⟩ :=
  Host.scatterAdd scatter_S50000_S850000x1_S850000_n_0_0_1
    (broadcastInDim S50000 ![] bcast_S_S50000 (constant S_ .f32 0x00000000#32))
    (broadcastInDim S850000x1 ![0] bcast_S850000_S850000x1_0 (dst ei))
    (broadcastInDim S850000 ![] bcast_S_S850000 (constant S_ .f32 0x3F800000#32))

/-- `deg^(-1/2)`, and `0` where the degree is not positive. -/
def dinv (ei : Arr F ⟨S2x800000, .i32⟩) : Arr F ⟨S50000, .f32⟩ :=
  select (cmpf (F := F) .ogt (deg ei) (broadcastInDim S50000 ![] bcast_S_S50000 (constant S_ .f32 0x00000000#32)))
    (Host.rsqrt (deg ei))
    (broadcastInDim S50000 ![] bcast_S_S50000 (id (constant S_ .f32 0x00000000#32)))

/-- The weight of message `e`: `dinv (src e) · dinv (dst e)`. -/
def norm (ei : Arr F ⟨S2x800000, .i32⟩) : Arr F ⟨S850000, .f32⟩ :=
  mulf (Host.gather gather_S50000_S850000x1_S850000_n_0_n_n_0_1_1 (dinv ei) (wrap (src ei)))
    (Host.gather gather_S50000_S850000x1_S850000_n_0_n_n_0_1_1 (dinv ei) (wrap (dst ei)))

/-- One propagation of 256-wide rows: row `n` of the result is the sum over the messages `e` into `n` of
    `norm e` times row `src e` of `h`. -/
def prop256 (ei : Arr F ⟨S2x800000, .i32⟩) (h : Arr F ⟨S50000x256, .f32⟩) : Arr F ⟨S50000x256, .f32⟩ :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 (dst ei))
    (mulf (Host.gather gather_S50000x256_S850000x1_S850000x256_1_0_n_n_0_1_1256 h (wrap (src ei)))
      (broadcastInDim S850000x256 ![0, 1] bcast_S850000x1_S850000x256_0_1
        (broadcastInDim S850000x1 ![0] bcast_S850000_S850000x1_0 (norm ei))))

/-- The same for 64-wide rows. -/
def prop64 (ei : Arr F ⟨S2x800000, .i32⟩) (h : Arr F ⟨S50000x64, .f32⟩) : Arr F ⟨S50000x64, .f32⟩ :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 (dst ei))
    (mulf (Host.gather gather_S50000x64_S850000x1_S850000x64_1_0_n_n_0_1_164 h (wrap (src ei)))
      (broadcastInDim S850000x64 ![0, 1] bcast_S850000x1_S850000x64_0_1
        (broadcastInDim S850000x1 ![0] bcast_S850000_S850000x1_0 (norm ei))))

/-- `relu (a + b)`, the bias `b` added to every row. -/
def biasRelu (a : Arr F ⟨S50000x256, .f32⟩) (b : Arr F ⟨S256, .f32⟩) : Arr F ⟨S50000x256, .f32⟩ :=
  maximumf
    (addf a (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- `a + b` for the last layer's 64-wide rows. -/
def bias64 (a : Arr F ⟨S50000x64, .f32⟩) (b : Arr F ⟨S64, .f32⟩) : Arr F ⟨S50000x64, .f32⟩ :=
  addf a (broadcastInDim S50000x64 ![0, 1] bcast_S1x64_S50000x64_0_1 (broadcastInDim S1x64 ![1] bcast_S64_S1x64_1 b))

/-- The row maximum of `z`, as the reference takes it: a max-reduce from `-∞`, then once more against `-∞`. -/
def rowMax (z : Arr F ⟨S50000x64, .f32⟩) : Arr F ⟨S50000, .f32⟩ :=
  maximumf (broadcastInDim S50000 ![] bcast_S_S50000 (constant S_ .f32 0xFF800000#32))
    (Host.reduce FloatOps.maximumf z (constant S_ .f32 0xFF800000#32) reducesTo_S50000x64_S50000_d1 h_S_)

/-- `z` minus its row maximum. -/
def shifted (z : Arr F ⟨S50000x64, .f32⟩) : Arr F ⟨S50000x64, .f32⟩ :=
  subf z (broadcastInDim S50000x64 ![0, 1] bcast_S50000x1_S50000x64_0_1 (broadcastInDim S50000x1 ![0] bcast_S50000_S50000x1_0 (rowMax z)))

/-- `log_softmax` along the rows: `shifted - log (Σ exp shifted)`. -/
def logSoftmax (z : Arr F ⟨S50000x64, .f32⟩) : Arr F ⟨S50000x64, .f32⟩ :=
  subf (shifted z)
    (broadcastInDim S50000x64 ![0, 1] bcast_S50000x1_S50000x64_0_1
      (Host.log (broadcastInDim S50000x1 ![0] bcast_S50000_S50000x1_0
        (Host.reduceAdd (Host.exp (shifted z)) (constant S_ .f32 0x00000000#32) reducesTo_S50000x64_S50000_d1 h_S_))))

/-- The product of node features (50000 rows of 256) with a 256 × 256 weight matrix. -/
def matmul256 (x : Arr F ⟨S50000x256, .f32⟩) (w : Arr F ⟨S256x256, .f32⟩) : Arr F ⟨S50000x256, .f32⟩ :=
  Host.dotGeneral dot_S50000x256_S256x256_S50000x256_1_0_0_1_n_n none x w

/-- The product with the last layer's 256 × 64 weight matrix. -/
def matmul64 (x : Arr F ⟨S50000x256, .f32⟩) (w : Arr F ⟨S256x64, .f32⟩) : Arr F ⟨S50000x64, .f32⟩ :=
  Host.dotGeneral dot_S50000x256_S256x64_S50000x64_1_0_0_1_n_n none x w

/-- The first hidden layer. -/
def hidden0 (x : Arr F ⟨S50000x256, .f32⟩) (ei : Arr F ⟨S2x800000, .i32⟩) (W0 : Arr F ⟨S256x256, .f32⟩) (b0 : Arr F ⟨S256, .f32⟩) : Arr F ⟨S50000x256, .f32⟩ :=
  biasRelu (prop256 ei (matmul256 x W0)) b0

/-- The second hidden layer. -/
def hidden1 (x : Arr F ⟨S50000x256, .f32⟩) (ei : Arr F ⟨S2x800000, .i32⟩) (W0 : Arr F ⟨S256x256, .f32⟩) (b0 : Arr F ⟨S256, .f32⟩)
    (W1 : Arr F ⟨S256x256, .f32⟩) (b1 : Arr F ⟨S256, .f32⟩) : Arr F ⟨S50000x256, .f32⟩ :=
  biasRelu (prop256 ei (matmul256 (hidden0 x ei W0 b0) W1)) b1

/-- The network's output: the class log-probabilities of every node. -/
def output (x : Arr F ⟨S50000x256, .f32⟩) (ei : Arr F ⟨S2x800000, .i32⟩) (W0 : Arr F ⟨S256x256, .f32⟩) (b0 : Arr F ⟨S256, .f32⟩)
    (W1 : Arr F ⟨S256x256, .f32⟩) (b1 : Arr F ⟨S256, .f32⟩) (W2 : Arr F ⟨S256x64, .f32⟩) (b2 : Arr F ⟨S64, .f32⟩) : Arr F ⟨S50000x64, .f32⟩ :=
  logSoftmax (bias64 (prop64 ei (matmul64 (hidden1 x ei W0 b0 W1 b1) W2)) b2)

end Cert.Stages

end
-- ==== Proof.TakeGather.lean ====
/-
  `jnp.take` as the kernel's program spells it against the plain row gather of the reference. `take` reads a
  negative node id from the end, gathers the rows, and then REPLACES by a NaN every row whose (wrapped) id is outside
  `[0, 49999]`; the reference's `h[src]` gathers the same rows and replaces nothing. Where every id is a node id,
  `0 ≤ id < 50000`, the mask is all ones and the two agree. The ids gathered are the message sources: the edge
  list's first row, which the precondition keeps in range, followed by the self-loops `0 … 49999`.
-/
import proofs.«412483_j87093346828457_1_alg».proof.Proof.Gen.KernelIdeal
import proofs.«412483_j87093346828457_1_alg».proof.Proof.Gen.Pre_finite_inputs
import proofs.«412483_j87093346828457_1_alg».proof.Defs
import proofs.«412483_j87093346828457_1_alg».proof.Proof.Stages
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.TakeValue

open Idealize.ShloMosaic Idealize.ShloMosaic.TcCoe Idealize.SL.Sem
open Cert.KernelIdeal Cert.KernelIdeal.Gen
open Cert.Stages (Arr)

variable {F : FTy → Type} [FloatOps F]

/-- The start indices `take` gathers at: a negative id counted from the end, as a column. -/
def takeIdx (idx : Arr F ⟨S850000, .i32⟩) : Arr F ⟨S850000x1, .i32⟩ :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

/-- `take`'s validity mask: row `k` is kept iff its start index lies in `[0, 49999]`. -/
def takeMask (idx : Arr F ⟨S850000, .i32⟩) : Arr F ⟨S850000, .i1⟩ :=
  Host.reduce IntOp.andi
    (andi (cmpi .sge (takeIdx idx) (broadcastInDim S850000x1 ![] bcast_S_S850000x1 (constantI S_ 32 0#32)))
      (cmpi .sle (takeIdx idx) (broadcastInDim S850000x1 ![0, 1] bcast_S1x1_S850000x1_0_1 (broadcastInDim S1x1 ![1] bcast_S1_S1x1_1 (constantI S1 32 49999#32)))))
    (constantI S_ 1 1#1) reducesTo_S850000x1_S850000_d1 h_S_

/-- `jnp.take (h, idx, axis = 0)` on 256-wide rows: the gathered rows where the mask holds, a NaN elsewhere. -/
def takeFill256 (h : Arr F ⟨S50000x256, .f32⟩) (idx : Arr F ⟨S850000, .i32⟩) : Arr F ⟨S850000x256, .f32⟩ :=
  select (broadcastInDim S850000x256 ![0] bcast_S850000_S850000x256_0 (takeMask (F := F) idx))
    (Host.gather gather_S50000x256_S850000x1_S850000x256_1_0_n_n_0_1_1256 h (takeIdx (F := F) idx))
    (broadcastInDim S850000x256 ![] bcast_S_S850000x256 (constant S_ .f32 0x7FC00000#32))

/-- The same on 64-wide rows. -/
def takeFill64 (h : Arr F ⟨S50000x64, .f32⟩) (idx : Arr F ⟨S850000, .i32⟩) : Arr F ⟨S850000x64, .f32⟩ :=
  select (broadcastInDim S850000x64 ![0] bcast_S850000_S850000x64_0 (takeMask (F := F) idx))
    (Host.gather gather_S50000x64_S850000x1_S850000x64_1_0_n_n_0_1_164 h (takeIdx (F := F) idx))
    (broadcastInDim S850000x64 ![] bcast_S_S850000x64 (constant S_ .f32 0x7FC00000#32))

/-- Every id of the vector is a node id: `0 ≤ id` and `id < 50000` as signed 32-bit words. -/
def InRange {n : Nat} (idx : (⟨1, ![n]⟩ : Shape).Idx → BitVec 32) : Prop :=
  ∀ k, IntOp.cmpi .sge (idx k) 0#32 = 1#1 ∧ IntOp.cmpi .slt (idx k) 50000#32 = 1#1

/-! ### Words: a node id neither wraps nor leaves the interval from 0 to 49999 -/

/-- A word x with 0 ≤ x < 50000 (signed) is not negative and is at most 49999. -/
theorem word_facts (x : BitVec 32) (h0 : IntOp.cmpi .sge x 0#32 = 1#1) (h1 : IntOp.cmpi .slt x 50000#32 = 1#1) :
    IntOp.cmpi .slt x 0#32 ≠ 1#1 ∧ IntOp.cmpi .sle x 49999#32 = 1#1 := by
  simp only [IntOp.cmpi, StableHlo.Predicate.ofBool_eq_one_iff, ne_eq] at h0 h1 ⊢
  rw [BitVec.sle_iff_toInt_le] at h0
  rw [BitVec.slt_iff_toInt_lt] at h1
  have e0 : (0#32 : BitVec 32).toInt = 0 := by decide
  have e1 : (50000#32 : BitVec 32).toInt = 50000 := by decide
  have e2 : (49999#32 : BitVec 32).toInt = 49999 := by decide
  rw [e0] at h0
  rw [e1] at h1
  refine ⟨?_, ?_⟩
  · rw [BitVec.slt_iff_toInt_lt, e0]; omega
  · rw [BitVec.sle_iff_toInt_le, e2]; omega

/-- Read from the end when negative, a node id is itself: nothing is added to a non-negative word. -/
theorem wrap_word (x : BitVec 32) (h0 : IntOp.cmpi .sge x 0#32 = 1#1) (h1 : IntOp.cmpi .slt x 50000#32 = 1#1) :
    Scalar.select (IntOp.cmpi .slt x 0#32) (IntOp.addi x 50000#32) x = x := by
  unfold Scalar.select
  exact if_neg (word_facts x h0 h1).1

/-! ### A conjunction over an axis of a mask that is one everywhere -/

/-- A left fold by and, from 1, over words that are all 1 is 1. -/
theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_ones f hf l

/-- A reduction by and, from 1, of a mask that is 1 at every index is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x hx _

/-! ### The start indices and the mask, entry by entry -/

/-- Every entry of the column of start indices is some entry of the id vector, 50000 added when it is negative
    (row p of the column reads id p; which entry it is does not matter below). -/
theorem takeIdx_apply_exists (idx : Arr F ⟨S850000, .i32⟩) (i : S850000x1.Idx) :
    ∃ k, takeIdx (F := F) idx i = Scalar.select (IntOp.cmpi .slt (idx k) 0#32) (IntOp.addi (idx k) 50000#32) (idx k) :=
  ⟨_, rfl⟩

/-- On node ids every start index is a node id, unchanged. -/
theorem takeIdx_apply_of_inRange (idx : Arr F ⟨S850000, .i32⟩) (hi : InRange idx) (i : S850000x1.Idx) :
    ∃ k, takeIdx (F := F) idx i = idx k := by
  obtain ⟨k, hk⟩ := takeIdx_apply_exists (F := F) idx i
  exact ⟨k, hk.trans (wrap_word _ (hi k).1 (hi k).2)⟩

/-- The start indices are the reference's, term for term. -/
theorem takeIdx_eq_wrap (idx : Arr F ⟨S850000, .i32⟩) : takeIdx (F := F) idx = Cert.Stages.wrap (F := F) idx := rfl

/-! ### The self-loops and the concatenation -/

/-- The word of a natural number below 50000 is a node id. -/
theorem ofNat_inRange (n : Nat) (hn : n < 50000) :
    IntOp.cmpi .sge (BitVec.ofNat 32 n) 0#32 = 1#1 ∧ IntOp.cmpi .slt (BitVec.ofNat 32 n) 50000#32 = 1#1 := by
  simp only [IntOp.cmpi, StableHlo.Predicate.ofBool_eq_one_iff]
  rw [BitVec.sle_iff_toInt_le, BitVec.slt_iff_toInt_lt, StableHlo.Predicate.toInt_ofNat_small n (by omega)]
  have e0 : (0#32 : BitVec 32).toInt = 0 := by decide
  have e1 : (50000#32 : BitVec 32).toInt = 50000 := by decide
  rw [e0, e1]
  omega

/-- Entry k of the sources, for k below 800000, is entry k of the edge list's first row. -/
theorem src_apply_left (ei : Arr F ⟨Cert.ReferenceIdeal.S2x800000, .i32⟩) (k : (⟨1, ![850000]⟩ : Shape).Idx) (hk : (k 0).val < 800000) :
    Cert.Stages.src (F := F) ei k = Cert.Stages.edgeRow0 (F := F) ei (ValueIdx.ix1 ⟨(k 0).val, hk⟩) :=
  concatenate_pair_apply_left (t := Cert.ReferenceIdeal.S850000) (s₁ := Cert.ReferenceIdeal.S800000) (s₂ := Cert.ReferenceIdeal.S50000)
    0 _ _ _ k rfl (ValueIdx.ix1 ⟨(k 0).val, hk⟩) (fun b => match b with | ⟨0, _⟩ => rfl)

/-- Entry 800000 + n of the sources is the self-loop of node n: the word of n. -/
theorem src_apply_right (ei : Arr F ⟨Cert.ReferenceIdeal.S2x800000, .i32⟩) (k : (⟨1, ![850000]⟩ : Shape).Idx) (hk : 800000 ≤ (k 0).val) :
    Cert.Stages.src (F := F) ei k = BitVec.ofNat 32 ((k 0).val - 800000) := by
  have hlt : (k 0).val < 850000 := (k 0).isLt
  have hn : (k 0).val - 800000 < 50000 := by omega
  exact concatenate_pair_apply_right (t := Cert.ReferenceIdeal.S850000) (s₁ := Cert.ReferenceIdeal.S800000) (s₂ := Cert.ReferenceIdeal.S50000)
    0 _ _ _ k rfl rfl (ValueIdx.ix1 ⟨(k 0).val - 800000, hn⟩)
    (fun b hb => absurd (Subsingleton.elim _ _) hb)
    (show (k 0).val - 800000 + 800000 = (k 0).val by omega)

/-! ### The precondition, decoded -/

/-- If the precondition, a function of the eight arrays, is all ones then the edge list's first row holds node ids: the
    predicate is a conjunction whose last two conjuncts are, each, a conjunction over the 800000 entries of the first
    row of the edge list, one of the comparisons 0 ≤ entry, the other of entry < 50000. -/
theorem edgeRow0_inRange_of_fn
    (a0 : FVec Ideal Cert.Pre_finite_inputs.S50000x256 .f32) (a1 : IVec Cert.Pre_finite_inputs.S2x800000 32)
    (a2 : FVec Ideal Cert.Pre_finite_inputs.S256x256 .f32) (a3 : FVec Ideal Cert.Pre_finite_inputs.S256 .f32)
    (a4 : FVec Ideal Cert.Pre_finite_inputs.S256x256 .f32) (a5 : FVec Ideal Cert.Pre_finite_inputs.S256 .f32)
    (a6 : FVec Ideal Cert.Pre_finite_inputs.S256x64 .f32) (a7 : FVec Ideal Cert.Pre_finite_inputs.S64 .f32)
    (h : Cert.Pre_finite_inputs.fn (F := Ideal) a0 a1 a2 a3 a4 a5 a6 a7 = fun _ => 1#1) :
    InRange (Cert.Stages.edgeRow0 (F := Ideal) a1) := by
  haveI : Subsingleton Cert.Pre_finite_inputs.S_.Idx := ⟨fun a b => funext fun d => d.elim0⟩
  have h0 := congrFun h ValueIdx.ix0
  unfold Cert.Pre_finite_inputs.fn Cert.Pre_finite_inputs.fn_part1 Cert.Pre_finite_inputs.fn_part2 at h0
  dsimp only at h0
  obtain ⟨h12, h3⟩ := IntOp.andi_eq_one.1 h0
  obtain ⟨_, h2⟩ := IntOp.andi_eq_one.1 h12
  intro k
  exact ⟨Host.reduce_andi_all _ _ _ _ _ h2 k, Host.reduce_andi_all _ _ _ _ _ h3 k⟩

/-- On node ids `take`'s mask is all ones. -/
theorem takeMask_of_inRange (idx : Arr F ⟨S850000, .i32⟩) (hi : InRange idx) : takeMask (F := F) idx = fun _ => 1#1 := by
  funext j
  unfold takeMask
  refine reduce_andi_ones _ _ _ _ (fun i => ?_) rfl j
  obtain ⟨k, hk⟩ := takeIdx_apply_of_inRange (F := F) idx hi i
  obtain ⟨h0, h1⟩ := hi k
  show IntOp.andi (IntOp.cmpi .sge (takeIdx (F := F) idx i) 0#32) (IntOp.cmpi .sle (takeIdx (F := F) idx i) 49999#32) = 1#1
  rw [hk, h0, (word_facts _ h0 h1).2]
  rfl

/-- On node ids `take` is the reference's row gather at the wrapped ids (256-wide rows). -/
theorem takeFill256_eq (h : Arr F ⟨S50000x256, .f32⟩) (idx : Arr F ⟨S850000, .i32⟩) (hi : InRange idx) :
    takeFill256 h idx = Host.gather Cert.ReferenceIdeal.gather_S50000x256_S850000x1_S850000x256_1_0_n_n_0_1_1256 h (Cert.Stages.wrap (F := F) idx) := by
  unfold takeFill256
  rw [takeMask_of_inRange (F := F) idx hi, takeIdx_eq_wrap]
  funext j
  exact ValueIdx.select_one _ _

/-- On node ids `take` is the reference's row gather at the wrapped ids (64-wide rows). -/
theorem takeFill64_eq (h : Arr F ⟨S50000x64, .f32⟩) (idx : Arr F ⟨S850000, .i32⟩) (hi : InRange idx) :
    takeFill64 h idx = Host.gather Cert.ReferenceIdeal.gather_S50000x64_S850000x1_S850000x64_1_0_n_n_0_1_164 h (Cert.Stages.wrap (F := F) idx) := by
  unfold takeFill64
  rw [takeMask_of_inRange (F := F) idx hi, takeIdx_eq_wrap]
  funext j
  exact ValueIdx.select_one _ _

/-- The message sources are node ids when the edge list's first row is: the appended self-loops are `0 … 49999`. -/
theorem src_inRange (ei : Arr F ⟨S2x800000, .i32⟩) (h0 : InRange (Cert.Stages.edgeRow0 (F := F) ei)) :
    InRange (Cert.Stages.src (F := F) ei) := by
  intro k
  by_cases hk : (k 0).val < 800000
  · rw [src_apply_left (F := F) ei k hk]
    exact h0 _
  · have hlt : (k 0).val < 850000 := (k 0).isLt
    rw [src_apply_right (F := F) ei k (by omega)]
    exact ofNat_inRange _ (by omega)

/-- The precondition keeps the edge list's first row in range, on every device. -/
theorem edgeRow0_inRange_of_pre (m : (ℓ : Loc nD τ sig) → Buf (Elt Ideal) ℓ) (hpre : Cert.Pre_KernelIdeal m) (c : Dev nD) :
    InRange (Cert.Stages.edgeRow0 (F := Ideal) (m ((c.tc : Thread nD τ).loc main_arg1))) := by
  exact edgeRow0_inRange_of_fn _ _ _ _ _ _ _ _ (hpre c)

end Cert.KernelIdeal.TakeValue

end
-- ==== Proof.KernelStretches.lean ====
/-
  The host stretches of the kernel's program between its six regions, each read as a function of the buffers it
  finds: the edge list with self-loops and the normalisation before the first region; after each matrix product the
  row gather (`take`), the scaling by the normalisation and the scatter-add into the destination rows, and the
  bias reshaped to one row for the region that follows. Every statement is about ONE stretch from ANY contents `V`.
-/
import proofs.«412483_j87093346828457_1_alg».proof.Proof.Gen.KernelIdeal.Launch
import proofs.«412483_j87093346828457_1_alg».proof.Proof.Stages
import proofs.«412483_j87093346828457_1_alg».proof.Proof.TakeGather
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen
open Cert.Stages (Arr)

/-- Contents carried to a buffer's own type and back are the contents. -/
theorem ofBuf_toBuf {sig : RefSig} {Val : EltTy → Type} {T : BufTy} (x : TRef sig T) (v : T.Contents Val) :
    x.ofBuf (x.toBuf v) = v := by
  obtain ⟨r, h, _, _⟩ := x
  subst h
  rfl

variable {F : FTy → Type} [FloatOps F]
-- the contents of every TensorCore buffer when the stretch begins
variable (V : Valuation τ sig (Elt F))

/-! ## Before the first region: the messages' sources and destinations, the degrees, the normalisation -/

set_option maxHeartbeats 4000000 in
theorem first_src : StableHlo.after hostOps0 V (Proc.devRef .tc main_v3) = Cert.Stages.src (F := F) (V (Proc.devRef .tc main_arg1)) := by
  delta hostOps0
  after_results
  unfold Cert.Stages.src Cert.Stages.edgeRow0
  rfl

set_option maxHeartbeats 4000000 in
theorem first_dst : StableHlo.after hostOps0 V (Proc.devRef .tc main_v6) = Cert.Stages.dst (F := F) (V (Proc.devRef .tc main_arg1)) := by
  delta hostOps0
  after_results
  unfold Cert.Stages.dst Cert.Stages.edgeRow1
  rfl

set_option maxHeartbeats 4000000 in
theorem first_degPos : StableHlo.after hostOps0 V (Proc.devRef .tc main_v12) =
    cmpf (F := F) .ogt (Cert.Stages.deg (F := F) (V (Proc.devRef .tc main_arg1))) (broadcastInDim S50000 ![] bcast_S_S50000 (constant S_ .f32 0x00000000#32)) := by
  delta hostOps0
  after_results
  unfold Cert.Stages.deg Cert.Stages.dst Cert.Stages.edgeRow1
  rfl

set_option maxHeartbeats 4000000 in
theorem first_rsqrtDeg : StableHlo.after hostOps0 V (Proc.devRef .tc main_v13) = Host.rsqrt (Cert.Stages.deg (F := F) (V (Proc.devRef .tc main_arg1))) := by
  delta hostOps0
  after_results
  unfold Cert.Stages.deg Cert.Stages.dst Cert.Stages.edgeRow1
  rfl

set_option maxHeartbeats 4000000 in
theorem first_zero : StableHlo.after hostOps0 V (Proc.devRef .tc main_cst_2) = constant (F := F) S_ .f32 0x00000000#32 := by
  delta hostOps0
  after_results

set_option maxHeartbeats 4000000 in
/-- `dinv`: the reciprocal root of the degree where the degree is positive, else the zero. -/
theorem where_dinv : StableHlo.after hostOps0_1 V (Proc.devRef .tc main_v14) =
    (TRef.of (T := ⟨S50000, .f32⟩) main_v14).toBuf (select ((TRef.of (T := ⟨S50000, .i1⟩) main_v12).ofBuf (V (Proc.devRef .tc main_v12))) ((TRef.of (T := ⟨S50000, .f32⟩) main_v13).ofBuf (V (Proc.devRef .tc main_v13)))
        (broadcastInDim S50000 ![] bcast_S_S50000 (id ((TRef.of (T := ⟨S_, .f32⟩) main_cst_2).ofBuf (V (Proc.devRef .tc main_cst_2)))))) := by
  delta hostOps0_1
  after_results_simp
  simp only [ofBuf_toBuf]

set_option maxHeartbeats 4000000 in
/-- The weight of every message: `dinv` at its source times `dinv` at its destination. -/
theorem norm_of : StableHlo.after hostOps0_2 V (Proc.devRef .tc main_v29) =
    mulf (Host.gather gather_S50000_S850000x1_S850000_n_0_n_n_0_1_1 (V (Proc.devRef .tc main_v14)) (Cert.Stages.wrap (F := F) (V (Proc.devRef .tc main_v3))))
      (Host.gather gather_S50000_S850000x1_S850000_n_0_n_n_0_1_1 (V (Proc.devRef .tc main_v14)) (Cert.Stages.wrap (F := F) (V (Proc.devRef .tc main_v6)))) := by
  delta hostOps0_2
  after_results
  unfold Cert.Stages.wrap
  rfl

/-! ## After a matrix product: the rows of the product at the messages' sources -/

set_option maxHeartbeats 4000000 in
theorem take_layer0 : StableHlo.after hostOps1 V (Proc.devRef .tc main_v31) =
    (TRef.of (T := ⟨S850000x256, .f32⟩) main_v31).toBuf (Cert.KernelIdeal.TakeValue.takeFill256 (F := F) ((TRef.of (T := ⟨S50000x256, .f32⟩) main_v30).ofBuf (V (Proc.devRef .tc main_v30))) ((TRef.of (T := ⟨S850000, .i32⟩) main_v3).ofBuf (V (Proc.devRef .tc main_v3)))) := by
  delta hostOps1
  after_results_simp
  simp only [ofBuf_toBuf]
  unfold Cert.KernelIdeal.TakeValue.takeFill256 Cert.KernelIdeal.TakeValue.takeMask Cert.KernelIdeal.TakeValue.takeIdx
  rfl

set_option maxHeartbeats 4000000 in
theorem take_layer1 : StableHlo.after hostOps3 V (Proc.devRef .tc main_v41) =
    (TRef.of (T := ⟨S850000x256, .f32⟩) main_v41).toBuf (Cert.KernelIdeal.TakeValue.takeFill256 (F := F) ((TRef.of (T := ⟨S50000x256, .f32⟩) main_v40).ofBuf (V (Proc.devRef .tc main_v40))) ((TRef.of (T := ⟨S850000, .i32⟩) main_v3).ofBuf (V (Proc.devRef .tc main_v3)))) := by
  delta hostOps3
  after_results_simp
  simp only [ofBuf_toBuf]
  unfold Cert.KernelIdeal.TakeValue.takeFill256 Cert.KernelIdeal.TakeValue.takeMask Cert.KernelIdeal.TakeValue.takeIdx
  rfl

set_option maxHeartbeats 4000000 in
theorem take_layer2 : StableHlo.after hostOps5 V (Proc.devRef .tc main_v51) =
    (TRef.of (T := ⟨S850000x64, .f32⟩) main_v51).toBuf (Cert.KernelIdeal.TakeValue.takeFill64 (F := F) ((TRef.of (T := ⟨S50000x64, .f32⟩) main_v50).ofBuf (V (Proc.devRef .tc main_v50))) ((TRef.of (T := ⟨S850000, .i32⟩) main_v3).ofBuf (V (Proc.devRef .tc main_v3)))) := by
  delta hostOps5
  after_results_simp
  simp only [ofBuf_toBuf]
  unfold Cert.KernelIdeal.TakeValue.takeFill64 Cert.KernelIdeal.TakeValue.takeMask Cert.KernelIdeal.TakeValue.takeIdx
  rfl

/-! ## Then the messages scaled and summed into their destination rows, and the bias as one row -/

set_option maxHeartbeats 4000000 in
theorem agg_layer0 : StableHlo.after hostOps1_1 V (Proc.devRef .tc main_v37) =
      Host.scatterAdd scatter_S50000x256_S850000x1_S850000x256_1_0_0_1
        (broadcastInDim S50000x256 ![] bcast_S_S50000x256 (constant S_ .f32 0x00000000#32))
        (broadcastInDim S850000x1 ![0] bcast_S850000_S850000x1_0 (V (Proc.devRef .tc main_v6)))
        (mulf (V (Proc.devRef .tc main_v31)) (broadcastInDim S850000x256 ![0, 1] bcast_S850000x1_S850000x256_0_1 (broadcastInDim S850000x1 ![0] bcast_S850000_S850000x1_0 (V (Proc.devRef .tc main_v29))))) := by
  delta hostOps1_1
  after_results

set_option maxHeartbeats 4000000 in
theorem biasRow_layer0 : StableHlo.after hostOps1_1 V (Proc.devRef .tc main_v38) = shapeCast S1x256 (V (Proc.devRef .tc main_arg3)) shapeCasts_S256_S1x256 := by
  delta hostOps1_1
  after_results
  rfl

set_option maxHeartbeats 4000000 in
theorem agg_layer1 : StableHlo.after hostOps3_1 V (Proc.devRef .tc main_v47) =
      Host.scatterAdd scatter_S50000x256_S850000x1_S850000x256_1_0_0_1
        (broadcastInDim S50000x256 ![] bcast_S_S50000x256 (constant S_ .f32 0x00000000#32))
        (broadcastInDim S850000x1 ![0] bcast_S850000_S850000x1_0 (V (Proc.devRef .tc main_v6)))
        (mulf (V (Proc.devRef .tc main_v41)) (broadcastInDim S850000x256 ![0, 1] bcast_S850000x1_S850000x256_0_1 (broadcastInDim S850000x1 ![0] bcast_S850000_S850000x1_0 (V (Proc.devRef .tc main_v29))))) := by
  delta hostOps3_1
  after_results

set_option maxHeartbeats 4000000 in
theorem biasRow_layer1 : StableHlo.after hostOps3_1 V (Proc.devRef .tc main_v48) = shapeCast S1x256 (V (Proc.devRef .tc main_arg5)) shapeCasts_S256_S1x256 := by
  delta hostOps3_1
  after_results
  rfl

set_option maxHeartbeats 4000000 in
theorem agg_layer2 : StableHlo.after hostOps5_1 V (Proc.devRef .tc main_v57) =
      Host.scatterAdd scatter_S50000x64_S850000x1_S850000x64_1_0_0_1
        (broadcastInDim S50000x64 ![] bcast_S_S50000x64 (constant S_ .f32 0x00000000#32))
        (broadcastInDim S850000x1 ![0] bcast_S850000_S850000x1_0 (V (Proc.devRef .tc main_v6)))
        (mulf (V (Proc.devRef .tc main_v51)) (broadcastInDim S850000x64 ![0, 1] bcast_S850000x1_S850000x64_0_1 (broadcastInDim S850000x1 ![0] bcast_S850000_S850000x1_0 (V (Proc.devRef .tc main_v29))))) := by
  delta hostOps5_1
  after_results

set_option maxHeartbeats 4000000 in
theorem biasRow_layer2 : StableHlo.after hostOps5_1 V (Proc.devRef .tc main_v58) = shapeCast S1x64 (V (Proc.devRef .tc main_arg7)) shapeCasts_S64_S1x64 := by
  delta hostOps5_1
  after_results
  rfl

end Cert.KernelIdeal.Stretch

end
-- ==== Proof.RegionMatmul.lean ====
/-
  The three matrix-product regions. Each tiles the 50000 rows of its left operand in ten blocks of 5000, multiplies a
  block by the whole right operand on the matrix unit (the operands first narrowed to bf16, which over the extended
  reals changes nothing) into a zero accumulator, and writes the block of the product back: after the region the
  output array is the whole product, entry (r, j) the sum over k of x (r, k) · w (k, j), which is what the reference's
  `dot_general` is.
-/
import proofs.«412483_j87093346828457_1_alg».proof.Proof.Gen.KernelIdeal.Frame
import proofs.«412483_j87093346828457_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal Cert.KernelIdeal.Gen
open Cert.Stages (Arr)

/-! ## The dimension numbers: contract the left operand's columns with the right operand's rows

For each of the four products (a block of 5000 rows or all 50000, into 256 or 64 columns) the entry (p, q) of the
product reads, at contraction position k, the left operand at (p, k) and the right operand at (k, q); so the sum
over the contraction index is the sum over k < 256 of those products. -/

/-! ### A block of 5000 rows times a 256 × 256 matrix -/

/-- On the left operand's row axis the entry read is the product entry's row, -/
theorem lhs_blk256_0 (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- on its column axis the contraction position, -/
theorem lhs_blk256_1 (j : S5000x256.Idx) (q : dot_S5000x256_S256x256_S5000x256_1_0_0_1_n_n.contr.Idx) :
    (dot_S5000x256_S256x256_S5000x256_1_0_0_1_n_n.lhsIdx j q 1).val = (q ⟨0, by decide⟩).val :=
  dot_S5000x256_S256x256_S5000x256_1_0_0_1_n_n.lhsIdx_val_of_single rfl j q
/-- on the right operand's row axis the contraction position, -/
theorem rhs_blk256_0 (j : S5000x256.Idx) (q : dot_S5000x256_S256x256_S5000x256_1_0_0_1_n_n.contr.Idx) :
    (dot_S5000x256_S256x256_S5000x256_1_0_0_1_n_n.rhsIdx j q 0).val = (q ⟨0, by decide⟩).val :=
  dot_S5000x256_S256x256_S5000x256_1_0_0_1_n_n.rhsIdx_val_of_single rfl j q
/-- and on its column axis the product entry's column. -/
theorem rhs_blk256_1 (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The block product's contraction sum, over k < 256. -/
theorem sum_blk256 (a : (⟨2, ![5000, 256]⟩ : Shape).Idx → EReal) (b : (⟨2, ![256, 256]⟩ : Shape).Idx → EReal) (p : Fin 5000) (q : Fin 256) :
    ∑ k : dot_S5000x256_S256x256_S5000x256_1_0_0_1_n_n.contr.Idx, a (dot_S5000x256_S256x256_S5000x256_1_0_0_1_n_n.lhsIdx (ix2 p q) k) * b (dot_S5000x256_S256x256_S5000x256_1_0_0_1_n_n.rhsIdx (ix2 p q) k)
      = ∑ k : Fin 256, a (ix2 p k) * b (ix2 k q) := by
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhs_blk256_0 _ _
    | ⟨1, _⟩ => exact (lhs_blk256_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rhs_blk256_0 _ _).trans hk
    | ⟨1, _⟩ => exact rhs_blk256_1 _ _)
  rw [el, er]

/-! ### A block of 5000 rows times a 256 × 64 matrix -/

/-- On the left operand's row axis the entry read is the product entry's row, -/
theorem lhs_blk64_0 (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- on its column axis the contraction position, -/
theorem lhs_blk64_1 (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
/-- on the right operand's row axis the contraction position, -/
theorem rhs_blk64_0 (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
/-- and on its column axis the product entry's column. -/
theorem rhs_blk64_1 (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The narrow block product's contraction sum, over k < 256. -/
theorem sum_blk64 (a : (⟨2, ![5000, 256]⟩ : Shape).Idx → EReal) (b : (⟨2, ![256, 64]⟩ : Shape).Idx → EReal) (p : Fin 5000) (q : Fin 64) :
    ∑ k : dot_S5000x256_S256x64_S5000x64_1_0_0_1_n_n.contr.Idx, a (dot_S5000x256_S256x64_S5000x64_1_0_0_1_n_n.lhsIdx (ix2 p q) k) * b (dot_S5000x256_S256x64_S5000x64_1_0_0_1_n_n.rhsIdx (ix2 p q) k)
      = ∑ k : Fin 256, a (ix2 p k) * b (ix2 k q) := by
  rw [← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact lhs_blk64_0 _ _
    | ⟨1, _⟩ => exact (lhs_blk64_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (rhs_blk64_0 _ _).trans hk
    | ⟨1, _⟩ => exact rhs_blk64_1 _ _)
  rw [el, er]

/-! ### All 50000 rows times a 256 × 256 matrix -/

/-- On the left operand's row axis the entry read is the product entry's row, -/
theorem lhs_all256_0 (j : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx j q 0).val = (j 0).val := by
  unfold DotDims.lhsIdx
  rw [dif_neg (show ¬(0 : Fin Cert.ReferenceIdeal.S50000x256.rank) ∈ Cert.ReferenceIdeal.dot_S50000x256_S256x256_S50000x256_1_0_0_1_n_n.lhsBatch by decide), dif_pos (show (0 : Fin Cert.ReferenceIdeal.S50000x256.rank) ∈ Cert.ReferenceIdeal.dot_S50000x256_S256x256_S50000x256_1_0_0_1_n_n.lhsNonContracting by decide)]
  rfl
/-- on its column axis the contraction position, -/
theorem lhs_all256_1 (j : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx j q 1).val = (q ⟨0, by decide⟩).val :=
  Cert.ReferenceIdeal.dot_S50000x256_S256x256_S50000x256_1_0_0_1_n_n.lhsIdx_val_of_single rfl j q
/-- on the right operand's row axis the contraction position, -/
theorem rhs_all256_0 (j : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx j q 0).val = (q ⟨0, by decide⟩).val :=
  Cert.ReferenceIdeal.dot_S50000x256_S256x256_S50000x256_1_0_0_1_n_n.rhsIdx_val_of_single rfl j q
/-- and on its column axis the product entry's column. -/
theorem rhs_all256_1 (j : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx j q 1).val = (j 1).val := by
  unfold DotDims.rhsIdx
  rw [dif_neg (show ¬(1 : Fin Cert.ReferenceIdeal.S256x256.rank) ∈ Cert.ReferenceIdeal.dot_S50000x256_S256x256_S50000x256_1_0_0_1_n_n.rhsBatch by decide), dif_pos (show (1 : Fin Cert.ReferenceIdeal.S256x256.rank) ∈ Cert.ReferenceIdeal.dot_S50000x256_S256x256_S50000x256_1_0_0_1_n_n.rhsNonContracting by decide)]
  rfl

/-- The whole product's contraction sum, over k < 256. -/
theorem sum_all256 (a : (⟨2, ![50000, 256]⟩ : Shape).Idx → EReal) (b : (⟨2, ![256, 256]⟩ : Shape).Idx → EReal) (p : Fin 50000) (q : Fin 256) :
    ∑ k : Cert.ReferenceIdeal.dot_S50000x256_S256x256_S50000x256_1_0_0_1_n_n.contr.Idx, a (Cert.ReferenceIdeal.dot_S50000x256_S256x256_S50000x256_1_0_0_1_n_n.lhsIdx (ix2 p q) k) * b (Cert.ReferenceIdeal.dot_S50000x256_S256x256_S50000x256_1_0_0_1_n_n.rhsIdx (ix2 p q) k)
      = ∑ k : Fin 256, a (ix2 p k) * b (ix2 k q) := by
  rw [← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q) ((contrEquiv1 Cert.ReferenceIdeal.dot_S50000x256_S256x256_S50000x256_1_0_0_1_n_n 256 rfl rfl).symm k) = ix2 p k := funext fun a => Fin.ext (by
    match a with
    | ⟨0, _⟩ => exact lhs_all256_0 _ _
    | ⟨1, _⟩ => exact (lhs_all256_1 _ _).trans hk)
  have er : Cert.ReferenceIdeal.dot_S50000x256_S256x256_S50000x256_1_0_0_1_n_n.rhsIdx (ix2 p q) ((contrEquiv1 Cert.ReferenceIdeal.dot_S50000x256_S256x256_S50000x256_1_0_0_1_n_n 256 rfl rfl).symm k) = ix2 k q := funext fun a => Fin.ext (by
    match a with
    | ⟨0, _⟩ => exact (rhs_all256_0 _ _).trans hk
    | ⟨1, _⟩ => exact rhs_all256_1 _ _)
  rw [el, er]

/-! ### All 50000 rows times a 256 × 64 matrix -/

/-- On the left operand's row axis the entry read is the product entry's row, -/
theorem lhs_all64_0 (j : Cert.ReferenceIdeal.S50000x64.Idx) (q : Cert.ReferenceIdeal.dot_S50000x256_S256x64_S50000x64_1_0_0_1_n_n.contr.Idx) :
    (Cert.ReferenceIdeal.dot_S50000x256_S256x64_S50000x64_1_0_0_1_n_n.lhsIdx j q 0).val = (j 0).val := by
  unfold DotDims.lhsIdx
  rw [dif_neg (show ¬(0 : Fin Cert.ReferenceIdeal.S50000x256.rank) ∈ Cert.ReferenceIdeal.dot_S50000x256_S256x64_S50000x64_1_0_0_1_n_n.lhsBatch by decide), dif_pos (show (0 : Fin Cert.ReferenceIdeal.S50000x256.rank) ∈ Cert.ReferenceIdeal.dot_S50000x256_S256x64_S50000x64_1_0_0_1_n_n.lhsNonContracting by decide)]
  rfl
/-- on its column axis the contraction position, -/
theorem lhs_all64_1 (j : Cert.ReferenceIdeal.S50000x64.Idx) (q : Cert.ReferenceIdeal.dot_S50000x256_S256x64_S50000x64_1_0_0_1_n_n.contr.Idx) :
    (Cert.ReferenceIdeal.dot_S50000x256_S256x64_S50000x64_1_0_0_1_n_n.lhsIdx j q 1).val = (q ⟨0, by decide⟩).val :=
  Cert.ReferenceIdeal.dot_S50000x256_S256x64_S50000x64_1_0_0_1_n_n.lhsIdx_val_of_single rfl j q
/-- on the right operand's row axis the contraction position, -/
theorem rhs_all64_0 (j : Cert.ReferenceIdeal.S50000x64.Idx) (q : Cert.ReferenceIdeal.dot_S50000x256_S256x64_S50000x64_1_0_0_1_n_n.contr.Idx) :
    (Cert.ReferenceIdeal.dot_S50000x256_S256x64_S50000x64_1_0_0_1_n_n.rhsIdx j q 0).val = (q ⟨0, by decide⟩).val :=
  Cert.ReferenceIdeal.dot_S50000x256_S256x64_S50000x64_1_0_0_1_n_n.rhsIdx_val_of_single rfl j q
/-- and on its column axis the product entry's column. -/
theorem rhs_all64_1 (j : Cert.ReferenceIdeal.S50000x64.Idx) (q : Cert.ReferenceIdeal.dot_S50000x256_S256x64_S50000x64_1_0_0_1_n_n.contr.Idx) :
    (Cert.ReferenceIdeal.dot_S50000x256_S256x64_S50000x64_1_0_0_1_n_n.rhsIdx j q 1).val = (j 1).val := by
  unfold DotDims.rhsIdx
  rw [dif_neg (show ¬(1 : Fin Cert.ReferenceIdeal.S256x64.rank) ∈ Cert.ReferenceIdeal.dot_S50000x256_S256x64_S50000x64_1_0_0_1_n_n.rhsBatch by decide), dif_pos (show (1 : Fin Cert.ReferenceIdeal.S256x64.rank) ∈ Cert.ReferenceIdeal.dot_S50000x256_S256x64_S50000x64_1_0_0_1_n_n.rhsNonContracting by decide)]
  rfl

/-- The narrow whole product's contraction sum, over k < 256. -/
theorem sum_all64 (a : (⟨2, ![50000, 256]⟩ : Shape).Idx → EReal) (b : (⟨2, ![256, 64]⟩ : Shape).Idx → EReal) (p : Fin 50000) (q : Fin 64) :
    ∑ k : Cert.ReferenceIdeal.dot_S50000x256_S256x64_S50000x64_1_0_0_1_n_n.contr.Idx, a (Cert.ReferenceIdeal.dot_S50000x256_S256x64_S50000x64_1_0_0_1_n_n.lhsIdx (ix2 p q) k) * b (Cert.ReferenceIdeal.dot_S50000x256_S256x64_S50000x64_1_0_0_1_n_n.rhsIdx (ix2 p q) k)
      = ∑ k : Fin 256, a (ix2 p k) * b (ix2 k q) := by
  rw [← Equiv.sum_comp (contrEquiv1 Cert.ReferenceIdeal.dot_S50000x256_S256x64_S50000x64_1_0_0_1_n_n 256 rfl rfl).symm]
  refine Finset.sum_congr rfl fun k _ => ?_
  have hk := contrEquiv1_symm_val Cert.ReferenceIdeal.dot_S50000x256_S256x64_S50000x64_1_0_0_1_n_n 256 rfl rfl k
  have el : Cert.ReferenceIdeal.dot_S50000x256_S256x64_S50000x64_1_0_0_1_n_n.lhsIdx (ix2 p q) ((contrEquiv1 Cert.ReferenceIdeal.dot_S50000x256_S256x64_S50000x64_1_0_0_1_n_n 256 rfl rfl).symm k) = ix2 p k := funext fun a => Fin.ext (by
    match a with
    | ⟨0, _⟩ => exact lhs_all64_0 _ _
    | ⟨1, _⟩ => exact (lhs_all64_1 _ _).trans hk)
  have er : Cert.ReferenceIdeal.dot_S50000x256_S256x64_S50000x64_1_0_0_1_n_n.rhsIdx (ix2 p q) ((contrEquiv1 Cert.ReferenceIdeal.dot_S50000x256_S256x64_S50000x64_1_0_0_1_n_n 256 rfl rfl).symm k) = ix2 k q := funext fun a => Fin.ext (by
    match a with
    | ⟨0, _⟩ => exact (rhs_all64_0 _ _).trans hk
    | ⟨1, _⟩ => exact rhs_all64_1 _ _)
  rw [el, er]

/-! ## The products at an entry -/

/-- What a point of region 0 stores: entry (p, q) is the sum over k of the loaded block at (p, k) times the loaded
    matrix at (k, q) — the narrowing of the operands is the identity on the extended reals and the accumulator is
    zero. -/
theorem pay0_apply (x0 : Vec Ideal S5000x256 .f32) (w : Vec Ideal S256x256 .f32) (p : Fin 5000) (q : Fin 256) :
    k0_pay1 (F := Ideal) x0 w (ix2 p q) = ∑ k : Fin 256, x0 (ix2 p k) * w (ix2 k q) := by
  unfold k0_pay1
  show FloatOps.matmul (F := Ideal) dot_S5000x256_S256x256_S5000x256_1_0_0_1_n_n none (truncf (F := Ideal) .bf16 x0 bitsLt_bf16_f32) (truncf (F := Ideal) .bf16 w bitsLt_bf16_f32)
    (constant S5000x256 .f32 0x00000000#32) (ix2 p q) = _
  rw [Ideal.matmul_constant_zero_apply]
  exact sum_blk256 x0 w p q

/-- Region 2's point stores the same product (its left block first cast to its own shape). -/
theorem pay2_apply (x0 : Vec Ideal S5000x256 .f32) (w : Vec Ideal S256x256 .f32) (p : Fin 5000) (q : Fin 256) :
    k2_pay1 (F := Ideal) x0 w (ix2 p q) = ∑ k : Fin 256, x0 (ix2 p k) * w (ix2 k q) := by
  unfold k2_pay1
  show FloatOps.matmul (F := Ideal) dot_S5000x256_S256x256_S5000x256_1_0_0_1_n_n none (truncf (F := Ideal) .bf16 (shapeCast S5000x256 x0 shapeCasts_S5000x256_S5000x256) bitsLt_bf16_f32) (truncf (F := Ideal) .bf16 w bitsLt_bf16_f32)
    (constant S5000x256 .f32 0x00000000#32) (ix2 p q) = _
  rw [Ideal.matmul_constant_zero_apply, shapeCast_self]
  exact sum_blk256 x0 w p q

/-- Region 4's point stores the product with the 256 × 64 matrix. -/
theorem pay4_apply (x0 : Vec Ideal S5000x256 .f32) (w : Vec Ideal S256x64 .f32) (p : Fin 5000) (q : Fin 64) :
    k4_pay1 (F := Ideal) x0 w (ix2 p q) = ∑ k : Fin 256, x0 (ix2 p k) * w (ix2 k q) := by
  unfold k4_pay1
  show FloatOps.matmul (F := Ideal) dot_S5000x256_S256x64_S5000x64_1_0_0_1_n_n none (truncf (F := Ideal) .bf16 (shapeCast S5000x256 x0 shapeCasts_S5000x256_S5000x256) bitsLt_bf16_f32) (truncf (F := Ideal) .bf16 w bitsLt_bf16_f32)
    (constant S5000x64 .f32 0x00000000#32) (ix2 p q) = _
  rw [Ideal.matmul_constant_zero_apply, shapeCast_self]
  exact sum_blk64 x0 w p q

/-- The reference's product with a 256 × 256 matrix at entry (r, q). -/
theorem matmul256_apply (x : Arr Ideal ⟨Cert.ReferenceIdeal.S50000x256, .f32⟩) (w : Arr Ideal ⟨Cert.ReferenceIdeal.S256x256, .f32⟩)
    (r : Fin 50000) (q : Fin 256) :
    Cert.Stages.matmul256 (F := Ideal) x w (ix2 r q) = ∑ k : Fin 256, x (ix2 r k) * w (ix2 k q) := by
  unfold Cert.Stages.matmul256
  show FloatOps.dotGeneral (F := Ideal) Cert.ReferenceIdeal.dot_S50000x256_S256x256_S50000x256_1_0_0_1_n_n none .single x w (ix2 r q) = _
  rw [Ideal.dotGeneral_apply]
  exact sum_all256 x w r q

/-- The reference's product with the 256 × 64 matrix at entry (r, q). -/
theorem matmul64_apply (x : Arr Ideal ⟨Cert.ReferenceIdeal.S50000x256, .f32⟩) (w : Arr Ideal ⟨Cert.ReferenceIdeal.S256x64, .f32⟩)
    (r : Fin 50000) (q : Fin 64) :
    Cert.Stages.matmul64 (F := Ideal) x w (ix2 r q) = ∑ k : Fin 256, x (ix2 r k) * w (ix2 k q) := by
  unfold Cert.Stages.matmul64
  show FloatOps.dotGeneral (F := Ideal) Cert.ReferenceIdeal.dot_S50000x256_S256x64_S50000x64_1_0_0_1_n_n none .single x w (ix2 r q) = _
  rw [Ideal.dotGeneral_apply]
  exact sum_all64 x w r q

/-! ## From blocks to the array -/

-- the TensorCore's buffer contents when a region is entered
variable (V : (c : Dev nD) → (b : Ref sig .tc) → Buf (Elt Ideal) ((c : Thread nD τ).loc b))

/-- The zero offsets of a whole-buffer load or store. -/
theorem zeroOffsets : (![0, 0] : Fin 2 → Nat) = fun _ => 0 :=
  funext fun a => by match a with | ⟨0, _⟩ => rfl | ⟨1, _⟩ => rfl

/-! ### Region 0 -/

/-- The index maps of region 0 at every point: the left operand's block and the product's block are the same block of
    rows, there is one block of columns, and the right operand is one block. -/
theorem blockIndex0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten blocks of rows is some point's. -/
theorem blockOnto0 : ∀ b : Fin 10, ∃ t : Fin cfg0.N, win0_2.index t = ![b.val, 0] :=
  (by decide +kernel : ∀ b : Fin 10, ∃ t : Fin grid0.N, win0_2.index t = ![b.val, 0])

/-- What point t writes back is block t of the whole product of the two arrays as the region finds them: row p of the
    block is row 5000 b + p of the array, b the block's index, and the left operand's block holds the same rows. -/
theorem flushed0 (c : Dev nD) (t : Fin cfg0.N) :
    (dat0 (F := Ideal) V c).flushed 2 t
      = ((cfg0.win 2).blk t).view.read (Elt Ideal) (Cert.Stages.matmul256 (F := Ideal) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x256) zeroOffsets, View.ld_unit_zero (S := S256x256) zeroOffsets]
  obtain ⟨e0, e1, e2, e3, e4, e5⟩ := blockIndex0 t
  funext j
  obtain ⟨p, q, rfl⟩ : ∃ (p : Fin 5000) (q : Fin 256), j = ix2 p q := ⟨j 0, j 1, eq_ix2 j⟩
  have hp : p.val < 5000 := p.isLt
  have hr : win0_2.index t (0 : Fin 2) * 5000 + p.val < 50000 := by omega
  show k0_pay1 (F := Ideal) (iblk0 V c 0 t) (iblk0 V c 1 t) (ix2 p q)
    = Cert.Stages.matmul256 (F := Ideal) (V c main_arg0) (V c main_arg2) (((cfg0.win 2).blk t).view.emb (ix2 p q))
  have h2 : ((cfg0.win 2).blk t).view.emb (ix2 p q) = ix2 (n0 := 50000) (n1 := 256) ⟨win0_2.index t (0 : Fin 2) * 5000 + p.val, hr⟩ q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 256 + 1 * q.val = q.val; omega
  refine (pay0_apply _ _ p q).trans ?_
  refine Eq.trans ?_ (congrArg (Cert.Stages.matmul256 (F := Ideal) (V c main_arg0) (V c main_arg2)) h2).symm
  refine Eq.trans ?_ (matmul256_apply _ _ _ q).symm
  refine Finset.sum_congr rfl fun k _ => ?_
  have h0 : iblk0 V c 0 t (ix2 p k) = V c main_arg0 (ix2 (n0 := 50000) (n1 := 256) ⟨win0_2.index t (0 : Fin 2) * 5000 + p.val, hr⟩ k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 256 + 1 * k.val = k.val; omega
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  rw [h0, h1]

/-- An entry of the product array is in point t's block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- Row r of the product array is in the block of index r / 5000: the ten blocks cover the array. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := blockOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- Region 0: x · W₀. -/
theorem matmul0_array (c : Dev nD) (x : Arr Ideal ⟨Cert.ReferenceIdeal.S50000x256, .f32⟩) (w : Arr Ideal ⟨Cert.ReferenceIdeal.S256x256, .f32⟩)
    (hx : V c main_arg0 = x) (hw : V c main_arg2 = w) :
    (dat0 (F := Ideal) V c).arrAt 2 cfg0.N =
      Cert.Stages.matmul256 (F := Ideal) x w := by
  subst hx hw
  exact (dat0 (F := Ideal) V c).arrAt_eq_of_cover 2 _ (fun t _ => flushed0 V c t) cover0

/-! ### Region 2 -/

/-- The index maps of region 2 at every point: as in region 0. -/
theorem blockIndex2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten blocks of rows is some point's. -/
theorem blockOnto2 : ∀ b : Fin 10, ∃ t : Fin cfg2.N, win2_2.index t = ![b.val, 0] :=
  (by decide +kernel : ∀ b : Fin 10, ∃ t : Fin grid2.N, win2_2.index t = ![b.val, 0])

/-- What point t writes back is block t of the whole product of the two arrays as the region finds them. -/
theorem flushed2 (c : Dev nD) (t : Fin cfg2.N) :
    (dat2 (F := Ideal) V c).flushed 2 t
      = ((cfg2.win 2).blk t).view.read (Elt Ideal) (Cert.Stages.matmul256 (F := Ideal) (V c main_v39) (V c main_arg4)) := by
  show (cfg2.win 2).cut (grid2.coords t) ((dat2 V c).after 2 t) = _
  rw [after2_2]
  unfold out2_2
  rw [View.canon_unit_zero zeroOffsets]
  simp only [View.ld_unit_zero (S := S5000x256) zeroOffsets, View.ld_unit_zero (S := S256x256) zeroOffsets]
  obtain ⟨e0, e1, e2, e3, e4, e5⟩ := blockIndex2 t
  funext j
  obtain ⟨p, q, rfl⟩ : ∃ (p : Fin 5000) (q : Fin 256), j = ix2 p q := ⟨j 0, j 1, eq_ix2 j⟩
  have hp : p.val < 5000 := p.isLt
  have hr : win2_2.index t (0 : Fin 2) * 5000 + p.val < 50000 := by omega
  show k2_pay1 (F := Ideal) (iblk2 V c 0 t) (iblk2 V c 1 t) (ix2 p q)
    = Cert.Stages.matmul256 (F := Ideal) (V c main_v39) (V c main_arg4) (((cfg2.win 2).blk t).view.emb (ix2 p q))
  have h2 : ((cfg2.win 2).blk t).view.emb (ix2 p q) = ix2 (n0 := 50000) (n1 := 256) ⟨win2_2.index t (0 : Fin 2) * 5000 + p.val, hr⟩ q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 256 + 1 * q.val = q.val; omega
  refine (pay2_apply _ _ p q).trans ?_
  refine Eq.trans ?_ (congrArg (Cert.Stages.matmul256 (F := Ideal) (V c main_v39) (V c main_arg4)) h2).symm
  refine Eq.trans ?_ (matmul256_apply _ _ _ q).symm
  refine Finset.sum_congr rfl fun k _ => ?_
  have h0 : iblk2 V c 0 t (ix2 p k) = V c main_v39 (ix2 (n0 := 50000) (n1 := 256) ⟨win2_2.index t (0 : Fin 2) * 5000 + p.val, hr⟩ k) := by
    show V c main_v39 (((cfg2.win 0).blk t).view.emb (ix2 p k)) = _
    refine congrArg (V c main_v39) ?_
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 256 + 1 * k.val = k.val; omega
  have h1 : iblk2 V c 1 t (ix2 k q) = V c main_arg4 (ix2 k q) := by
    show V c main_arg4 (((cfg2.win 1).blk t).view.emb (ix2 k q)) = _
    refine congrArg (V c main_arg4) ?_
    funext a; apply Fin.ext
    match a with
    | ⟨0, _⟩ => show win2_1.index t (0 : Fin 2) * 256 + 1 * k.val = k.val; omega
    | ⟨1, _⟩ => show win2_1.index t (1 : Fin 2) * 256 + 1 * q.val = q.val; omega
  rw [h0, h1]

/-- An entry of the product array is in point t's block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v40).slice (win2_2.rect t)).set ↔ _
  rw [View.set_slice_whole, Rect.mem_set_unit]
  exact Iff.rfl

/-- The ten blocks cover the array. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := blockOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- Region 2: h₀ · W₁. -/
theorem matmul2_array (c : Dev nD) (x : Arr Ideal ⟨Cert.ReferenceIdeal.S50000x256, .f32⟩) (w : Arr Ideal ⟨Cert.ReferenceIdeal.S256x256, .f32⟩)
    (hx : V c main_v39 = x) (hw : V c main_arg4 = w) :
    (dat2 (F := Ideal) V c).arrAt 2 cfg2.N =
      Cert.Stages.matmul256 (F := Ideal) x w := by
  subst hx hw
  exact (dat2 (F := Ideal) V c).arrAt_eq_of_cover 2 _ (fun t _ => flushed2 V c t) cover2

/-! ### Region 4 -/

/-- The index maps of region 4 at every point: as in region 0. -/
theorem blockIndex4 : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every one of the ten blocks of rows is some point's. -/
theorem blockOnto4 : ∀ b : Fin 10, ∃ t : Fin cfg4.N, win4_2.index t = ![b.val, 0] :=
  (by decide +kernel : ∀ b : Fin 10, ∃ t : Fin grid4.N, win4_2.index t = ![b.val, 0])

/-- What point t writes back is block t of the whole 64-column product of the two arrays as the region finds them. -/
theorem flushed4 (c : Dev nD) (t : Fin cfg4.N) :
    (dat4 (F := Ideal) V c).flushed 2 t
      = ((cfg4.win 2).blk t).view.read (Elt Ideal) (Cert.Stages.matmul64 (F := Ideal) (V c main_v49) (V c main_arg6)) := by
  show (cfg4.win 2).cut (grid4.coords t) ((dat4 V c).after 2 t) = _
  rw [after4_2]
  unfold out4_2
  rw [View.canon_unit_zero zeroOffsets]
  simp only [View.ld_unit_zero (S := S5000x256) zeroOffsets, View.ld_unit_zero (S := S256x64) zeroOffsets]
  obtain ⟨e0, e1, e2, e3, e4, e5⟩ := blockIndex4 t
  funext j
  obtain ⟨p, q, rfl⟩ : ∃ (p : Fin 5000) (q : Fin 64), j = ix2 p q := ⟨j 0, j 1, eq_ix2 j⟩
  have hp : p.val < 5000 := p.isLt
  have hr : win4_2.index t (0 : Fin 2) * 5000 + p.val < 50000 := by omega
  show k4_pay1 (F := Ideal) (iblk4 V c 0 t) (iblk4 V c 1 t) (ix2 p q)
    = Cert.Stages.matmul64 (F := Ideal) (V c main_v49) (V c main_arg6) (((cfg4.win 2).blk t).view.emb (ix2 p q))
  have h2 : ((cfg4.win 2).blk t).view.emb (ix2 p q) = ix2 (n0 := 50000) (n1 := 64) ⟨win4_2.index t (0 : Fin 2) * 5000 + p.val, hr⟩ q := by
    funext a; apply Fin.ext
    match a with
    | ⟨0, _⟩ => show win4_2.index t (0 : Fin 2) * 5000 + 1 * p.val = win4_2.index t (0 : Fin 2) * 5000 + p.val; omega
    | ⟨1, _⟩ => show win4_2.index t (1 : Fin 2) * 64 + 1 * q.val = q.val; omega
  refine (pay4_apply _ _ p q).trans ?_
  refine Eq.trans ?_ (congrArg (Cert.Stages.matmul64 (F := Ideal) (V c main_v49) (V c main_arg6)) h2).symm
  refine Eq.trans ?_ (matmul64_apply _ _ _ q).symm
  refine Finset.sum_congr rfl fun k _ => ?_
  have h0 : iblk4 V c 0 t (ix2 p k) = V c main_v49 (ix2 (n0 := 50000) (n1 := 256) ⟨win4_2.index t (0 : Fin 2) * 5000 + p.val, hr⟩ k) := by
    show V c main_v49 (((cfg4.win 0).blk t).view.emb (ix2 p k)) = _
    refine congrArg (V c main_v49) ?_
    funext a; apply Fin.ext
    match a with
    | ⟨0, _⟩ => show win4_0.index t (0 : Fin 2) * 5000 + 1 * p.val = win4_2.index t (0 : Fin 2) * 5000 + p.val; omega
    | ⟨1, _⟩ => show win4_0.index t (1 : Fin 2) * 256 + 1 * k.val = k.val; omega
  have h1 : iblk4 V c 1 t (ix2 k q) = V c main_arg6 (ix2 k q) := by
    show V c main_arg6 (((cfg4.win 1).blk t).view.emb (ix2 k q)) = _
    refine congrArg (V c main_arg6) ?_
    funext a; apply Fin.ext
    match a with
    | ⟨0, _⟩ => show win4_1.index t (0 : Fin 2) * 256 + 1 * k.val = k.val; omega
    | ⟨1, _⟩ => show win4_1.index t (1 : Fin 2) * 64 + 1 * q.val = q.val; omega
  rw [h0, h1]

/-- An entry of the product array is in point t's block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v50).slice (win4_2.rect t)).set ↔ _
  rw [View.set_slice_whole, Rect.mem_set_unit]
  exact Iff.rfl

/-- The ten blocks cover the array. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := blockOnto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- Region 4: h₁ · W₂, 64 columns. -/
theorem matmul4_array (c : Dev nD) (x : Arr Ideal ⟨Cert.ReferenceIdeal.S50000x256, .f32⟩) (w : Arr Ideal ⟨Cert.ReferenceIdeal.S256x64, .f32⟩)
    (hx : V c main_v49 = x) (hw : V c main_arg6 = w) :
    (dat4 (F := Ideal) V c).arrAt 2 cfg4.N =
      Cert.Stages.matmul64 (F := Ideal) x w := by
  subst hx hw
  exact (dat4 (F := Ideal) V c).arrAt_eq_of_cover 2 _ (fun t _ => flushed4 V c t) cover4

end Cert.KernelIdeal.RegionValue

end
-- ==== Proof.RegionBiasRelu.lean ====
/-
  The two bias-and-relu regions. Each tiles the 50000 rows in ten blocks of 5000 and writes back, entry by entry,
  `max (a (r, j) + b j) 0`, the bias staged as one row [1, 256] and broadcast down the block: after the region the
  output array is `relu (a + b)` with `b` added to every row, which is the reference's `maximum (a + broadcast b) 0`.
-/
import proofs.«412483_j87093346828457_1_alg».proof.Proof.Gen.KernelIdeal.Frame
import proofs.«412483_j87093346828457_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.Pipeline (Dat)
open Idealize.ShloMosaic.ValueIdx
open Cert.KernelIdeal Cert.KernelIdeal.Gen
open Cert.Stages (Arr)

-- the TensorCore's buffer contents when a region is entered
variable (V : (c : Dev nD) → (b : Ref sig .tc) → Buf (Elt Ideal) ((c : Thread nD τ).loc b))

/-! ## The entry function -/

/-- `max (a (r, j) + brow (0, j)) 0` at every entry `(r, j)`: the one-row array `brow` added to every row of `a`, then the
    positive part. -/
def reluRows (a : S50000x256.Idx → Ideal .f32) (brow : S1x256.Idx → Ideal .f32) : S50000x256.Idx → Ideal .f32 :=
  fun i => max (a i + brow (ix2 (0 : Fin 1) (⟨(i 1).val, idx2_lt1 i⟩ : Fin 256))) (FloatOps.ofBits (F := Ideal) .f32 0x00000000#32)

/-- The body's value at entry `(p, q)` of its block: the block of `a` at `(p, q)` plus the bias row at `(0, q)`, against zero.
    The two casts are to the vectors' own shapes; the broadcast repeats the one row down the block. -/
theorem pay_apply (x0 : FVec Ideal S5000x256 .f32) (brow : FVec Ideal S1x256 .f32) (p : Fin 5000) (q : Fin 256) :
    k1_pay1 (F := Ideal) x0 brow (ix2 p q)
      = max (x0 (ix2 p q) + brow (ix2 (0 : Fin 1) q)) (FloatOps.ofBits (F := Ideal) .f32 0x00000000#32) := by
  unfold k1_pay1
  rw [maximumf_apply, addf_apply, broadcast_apply, shapeCast_self, shapeCast_self, broadcastTo_1b_ab_apply]

/-- The specification at entry `(r, j)`: `max (a (r, j) + b j) 0`. The bias passes through two broadcasts, to one row and
    then down the rows; the zero is a scalar broadcast to the whole array. -/
theorem biasRelu_apply (a : FVec Ideal Cert.ReferenceIdeal.S50000x256 .f32) (b : FVec Ideal Cert.ReferenceIdeal.S256 .f32)
    (r : Fin 50000) (j : Fin 256) :
    Cert.Stages.biasRelu (F := Ideal) a b (ix2 r j)
      = max (a (ix2 r j) + b (ix1 j)) (FloatOps.ofBits (F := Ideal) .f32 0x00000000#32) := by
  unfold Cert.Stages.biasRelu
  rw [maximumf_apply, addf_apply]
  rw [broadcastInDim_apply _ Cert.ReferenceIdeal.Gen.bcast_S1x256_S50000x256_0_1 _ (ix2 r j) (ix2 (0 : Fin 1) j) (fun ax => match ax with
    | ⟨0, _⟩ => by show 0 = if (1 : Nat) = 1 then 0 else r.val; rw [if_pos rfl]
    | ⟨1, _⟩ => by show j.val = if (256 : Nat) = 1 then 0 else j.val; rw [if_neg (by decide)])]
  rw [broadcastInDim_apply _ Cert.ReferenceIdeal.Gen.bcast_S256_S1x256_1 b (ix2 (0 : Fin 1) j) (ix1 j) (fun ax => match ax with
    | ⟨0, _⟩ => by show j.val = if (256 : Nat) = 1 then 0 else j.val; rw [if_neg (by decide)])]
  rw [broadcastInDim_apply _ Cert.ReferenceIdeal.Gen.bcast_S_S50000x256 _ (ix2 r j) ix0 (fun ax => ax.elim0)]
  rfl

/-- The specification is the entry function of `a` and of the bias reshaped to one row: a bias of 256 entries reshaped to
    `[1, 256]` has entry `j` at `(0, j)`. -/
theorem biasRelu_eq_reluRows (a : Arr Ideal ⟨Cert.ReferenceIdeal.S50000x256, .f32⟩) (b : Arr Ideal ⟨Cert.ReferenceIdeal.S256, .f32⟩) :
    Cert.Stages.biasRelu (F := Ideal) a b = reluRows a (shapeCast S1x256 b shapeCasts_S256_S1x256) := by
  funext i
  obtain ⟨r, j, rfl⟩ : ∃ (r : Fin 50000) (j : Fin 256), i = ix2 r j := ⟨i 0, i 1, eq_ix2 i⟩
  rw [biasRelu_apply]
  unfold reluRows
  rw [shapeCast_a_1a_apply]

/-- One entry of a block, placed in the array: when entry `(p, q)` of the block of `a` is `a i` and the staged bias row at
    `(0, q)` is the bias row at `i`'s column, the body's value at `(p, q)` is the entry function at `i`. -/
theorem block_entry (x0 : FVec Ideal S5000x256 .f32) (brow : FVec Ideal S1x256 .f32)
    (a : S50000x256.Idx → Ideal .f32) (bb : S1x256.Idx → Ideal .f32) (p : Fin 5000) (q : Fin 256) (i : S50000x256.Idx)
    (h0 : x0 (ix2 p q) = a i)
    (h1 : brow (ix2 (0 : Fin 1) q) = bb (ix2 (0 : Fin 1) (⟨(i 1).val, idx2_lt1 i⟩ : Fin 256))) :
    k1_pay1 (F := Ideal) x0 brow (ix2 p q) = reluRows a bb i := by
  rw [pay_apply, h0, h1]
  rfl

/-- The offset `(0, 0)` of the body's one load and one store per buffer. -/
theorem origin2 : (![0, 0] : Fin 2 → Nat) = fun _ => 0 :=
  funext fun a => match a with | ⟨0, _⟩ => rfl | ⟨1, _⟩ => rfl

/-! ## Region 1: the array after the ten blocks -/

/-- The block index maps over the ten grid points: point `t` takes rows `[5000 t, 5000 t + 5000)` of the input and of the
    output, all 256 columns, and the whole bias row. -/
theorem blocks1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the entry function of the region's two input arrays. -/
theorem written1 (c : Dev nD) (t : Fin cfg1.N) :
    (dat1 (F := Ideal) V c).flushed 2 t
      = ((cfg1.win 2).blk t).view.read (Elt Ideal) (reluRows (V c main_v37) (V c main_v38)) := by
  show (cfg1.win 2).cut (grid1.coords t) ((dat1 V c).after 2 t) = _
  rw [after1_2]
  unfold out1_2
  rw [View.canon_unit_zero origin2]
  simp only [View.ld_unit_zero (S := S5000x256) origin2, View.ld_unit_zero (S := S1x256) origin2]
  obtain ⟨e00, e01, e10, e11, e20, e21⟩ := blocks1 t
  funext j
  obtain ⟨p, q, rfl⟩ : ∃ (p : Fin 5000) (q : Fin 256), j = ix2 p q := ⟨j 0, j 1, eq_ix2 j⟩
  show k1_pay1 (iblk1 V c 0 t) (iblk1 V c 1 t) (ix2 p q)
    = reluRows (V c main_v37) (V c main_v38) (((cfg1.win 2).blk t).view.emb (ix2 p q))
  refine block_entry _ _ _ _ p q _ ?_ ?_
  · show V c main_v37 (((cfg1.win 0).blk t).view.emb (ix2 p q)) = V c main_v37 (((cfg1.win 2).blk t).view.emb (ix2 p q))
    refine congrArg (V c main_v37) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 256 + 1 * q.val = win1_2.index t (1 : Fin 2) * 256 + 1 * q.val; omega
  · show V c main_v38 (((cfg1.win 1).blk t).view.emb (ix2 (0 : Fin 1) q)) = V c main_v38 _
    refine congrArg (V c main_v38) (funext fun a => Fin.ext ?_)
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega

/-- An index of the output array is in point `t`'s block iff each coordinate is in the block's range on its axis. -/
theorem mem_block1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v39).slice (win1_2.rect t)).set ↔ _
  rw [View.set_slice_whole, Rect.mem_set_unit]
  exact Iff.rfl

/-- Every entry of the output is written: row `r` lies in the block of point `r / 5000`. -/
theorem covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, e20, e21⟩ := blocks1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- Region 1: `relu (agg₀ + b₀)`; the bias arrives reshaped to one row. -/
theorem biasrelu1_array (c : Dev nD) (a : Arr Ideal ⟨Cert.ReferenceIdeal.S50000x256, .f32⟩) (b : Arr Ideal ⟨Cert.ReferenceIdeal.S256, .f32⟩)
    (ha : V c main_v37 = a) (hb : V c main_v38 = shapeCast S1x256 b shapeCasts_S256_S1x256) :
    (dat1 (F := Ideal) V c).arrAt 2 cfg1.N = Cert.Stages.biasRelu (F := Ideal) a b := by
  rw [(dat1 (F := Ideal) V c).arrAt_eq_of_cover 2 (reluRows (V c main_v37) (V c main_v38)) (fun t _ => written1 V c t) covered1,
    ha, hb]
  exact (biasRelu_eq_reluRows a b).symm

/-! ## Region 3: the array after the ten blocks -/

/-- The second region's body computes the same value as the first's, operation for operation. -/
theorem same_body : k3_pay1 (F := Ideal) = k1_pay1 (F := Ideal) := rfl

/-- The block index maps over the ten grid points: point `t` takes rows `[5000 t, 5000 t + 5000)` of the input and of the
    output, all 256 columns, and the whole bias row. -/
theorem blocks3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the entry function of the region's two input arrays. -/
theorem written3 (c : Dev nD) (t : Fin cfg3.N) :
    (dat3 (F := Ideal) V c).flushed 2 t
      = ((cfg3.win 2).blk t).view.read (Elt Ideal) (reluRows (V c main_v47) (V c main_v48)) := by
  show (cfg3.win 2).cut (grid3.coords t) ((dat3 V c).after 2 t) = _
  rw [after3_2]
  unfold out3_2
  rw [View.canon_unit_zero origin2]
  simp only [View.ld_unit_zero (S := S5000x256) origin2, View.ld_unit_zero (S := S1x256) origin2]
  rw [same_body]
  obtain ⟨e00, e01, e10, e11, e20, e21⟩ := blocks3 t
  funext j
  obtain ⟨p, q, rfl⟩ : ∃ (p : Fin 5000) (q : Fin 256), j = ix2 p q := ⟨j 0, j 1, eq_ix2 j⟩
  show k1_pay1 (iblk3 V c 0 t) (iblk3 V c 1 t) (ix2 p q)
    = reluRows (V c main_v47) (V c main_v48) (((cfg3.win 2).blk t).view.emb (ix2 p q))
  refine block_entry _ _ _ _ p q _ ?_ ?_
  · show V c main_v47 (((cfg3.win 0).blk t).view.emb (ix2 p q)) = V c main_v47 (((cfg3.win 2).blk t).view.emb (ix2 p q))
    refine congrArg (V c main_v47) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 256 + 1 * q.val = win3_2.index t (1 : Fin 2) * 256 + 1 * q.val; omega
  · show V c main_v48 (((cfg3.win 1).blk t).view.emb (ix2 (0 : Fin 1) q)) = V c main_v48 _
    refine congrArg (V c main_v48) (funext fun a => Fin.ext ?_)
    match a with
    | ⟨0, _⟩ => show win3_1.index t (0 : Fin 2) * 1 + 1 * 0 = 0; omega
    | ⟨1, _⟩ => show win3_1.index t (1 : Fin 2) * 256 + 1 * q.val = win3_2.index t (1 : Fin 2) * 256 + 1 * q.val; omega

/-- An index of the output array is in point `t`'s block iff each coordinate is in the block's range on its axis. -/
theorem mem_block3 (t : Fin cfg3.N) (i : S50000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v49).slice (win3_2.rect t)).set ↔ _
  rw [View.set_slice_whole, Rect.mem_set_unit]
  exact Iff.rfl

/-- Every entry of the output is written: row `r` lies in the block of point `r / 5000`. -/
theorem covered3 (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : grid3.N = 10 := N_3
  obtain ⟨t, ht⟩ : ∃ t : Fin cfg3.N, t.val = (i 0).val / 5000 :=
    ⟨⟨(i 0).val / 5000, by show (i 0).val / 5000 < grid3.N; omega⟩, rfl⟩
  obtain ⟨-, -, -, -, e20, e21⟩ := blocks3 t
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- Region 3: `relu (agg₁ + b₁)`. -/
theorem biasrelu3_array (c : Dev nD) (a : Arr Ideal ⟨Cert.ReferenceIdeal.S50000x256, .f32⟩) (b : Arr Ideal ⟨Cert.ReferenceIdeal.S256, .f32⟩)
    (ha : V c main_v47 = a) (hb : V c main_v48 = shapeCast S1x256 b shapeCasts_S256_S1x256) :
    (dat3 (F := Ideal) V c).arrAt 2 cfg3.N = Cert.Stages.biasRelu (F := Ideal) a b := by
  rw [(dat3 (F := Ideal) V c).arrAt_eq_of_cover 2 (reluRows (V c main_v47) (V c main_v48)) (fun t _ => written3 V c t) covered3,
    ha, hb]
  exact (biasRelu_eq_reluRows a b).symm

end Cert.KernelIdeal.RegionValue

end
-- ==== Proof.RegionLogSoftmax.lean ====
/-
  The last region: bias and log-softmax along the 64 classes. Each of the ten blocks of 5000 rows computes, row by
  row, `z = a + b`, its maximum `M` over the row, `s = z - M`, and writes back `s - log (Σ_j exp s_j)`: after the
  region the output array is the reference's `log_softmax (a + broadcast b)` (whose row maximum is a max-reduce from
  `-∞` taken once more against `-∞`, the same extended real).
-/
import proofs.«412483_j87093346828457_1_alg».proof.Proof.Gen.KernelIdeal.Frame
import proofs.«412483_j87093346828457_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem
open Idealize.ShloMosaic.Pipeline (Dat)
open Cert.KernelIdeal Cert.KernelIdeal.Gen
open Cert.Stages (Arr)

namespace LogSoftmax

open Idealize.ShloMosaic.ValueIdx

/-! ## A column read back: a vector as one column, and a column copied along the rows -/

section Column
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The row function both programs compute -/

/-- `-∞` as both programs write it: the f32 pattern `0xFF800000`. Its value is never needed: the maximum is taken
    from it on both sides. -/
abbrev negInf : EReal := Ideal.ofBits .f32 0xFF800000#32

/-- The maximum of a row of 64 extended reals, from `-∞`. -/
def rowMaxE (z : Fin 64 → EReal) : EReal := (Finset.univ : Finset (Fin 64)).fold max negInf z

/-- `log_softmax` of one row: `z j - M - log (Σ_k exp (z k - M))` with `M` the row's maximum. -/
def LS (z : Fin 64 → EReal) (j : Fin 64) : EReal :=
  z j - rowMaxE z - Ideal.log (∑ k : Fin 64, Ideal.exp (z k - rowMaxE z))

/-- Taking the maximum once more against `-∞` changes nothing: the fold started there. -/
theorem max_negInf_rowMaxE (z : Fin 64 → EReal) : max negInf (rowMaxE z) = rowMaxE z :=
  max_eq_right ((Finset.le_fold_max _).2 (Or.inl le_rfl))

/-! ## The block's payload, row by row -/

section Payload

/-- Row `p` of an `[n, 64]` array with column `k` inserted on the reduced axis is the entry `(p, k)`. -/
theorem lift_row {n : ℕ} (h : (⟨2, ![n, 64]⟩ : Shape).Reduces [1] ⟨1, ![n]⟩) (p : Fin n) (k : Fin 64) : h.lift (ix1 p) k = ix2 p k := by
  funext c
  match c with
  | ⟨0, _⟩ => rfl
  | ⟨1, _⟩ => rfl

/-- The block's lane maximum at row `p` is the maximum of that row's 64 entries, from `-∞`. -/
theorem blockRowMax (v : FVec Ideal S5000x64 .f32) (hφ : FKind.Formats .f32)
    (hacc : @Eq (BitVec FTy.f32.bits) 0xFF800000#32 0xFF800000#32) (p : Fin 5000) :
    multiReduction (F := Ideal) .maximumf [1] S5000 v 0xFF800000#32 reduces_S5000x64_S5000 hφ hacc (ix1 p)
      = rowMaxE (fun k => v (ix2 p k)) := by
  refine (Ideal.multiReduction_maximumf_single v 0xFF800000#32 reduces_S5000x64_S5000 hφ hacc (ix1 p)).trans ?_
  unfold rowMaxE
  exact congrArg (Finset.fold max negInf · Finset.univ) (funext fun k => congrArg v (lift_row _ p k))

/-- The block's lane sum at row `p` is the sum of that row's 64 entries. -/
theorem blockRowSum (v : FVec Ideal S5000x64 .f32) (hφ : FKind.Formats .f32)
    (hacc : @Eq (BitVec FTy.f32.bits) 0x00000000#32 0x00000000#32) (p : Fin 5000) :
    multiReduction (F := Ideal) .add [1] S5000 v 0x00000000#32 reduces_S5000x64_S5000 hφ hacc (ix1 p)
      = ∑ k : Fin 64, v (ix2 p k) := by
  refine (Ideal.multiReduction_add_single v 0x00000000#32 reduces_S5000x64_S5000 hφ hacc (ix1 p)).trans ?_
  exact Finset.sum_congr rfl fun k _ => congrArg v (lift_row _ p k)

/-- A per-row value made a column and copied along the row reads, at `(p, k)`, the value of row `p`. -/
theorem blockColumn (m : FVec Ideal S5000 .f32) (p : Fin 5000) (k : Fin 64) :
    broadcastTo S5000x64 (shapeCast S5000x1 m shapeCasts_S5000_S5000x1) broadcasts_S5000x1_S5000x64 (ix2 p k) = m (ix1 p) :=
  (broadcastTo_a1_ab_apply _ _ p k).trans (shapeCast_a_a1_apply m _ p 0)

/-- The same with the logarithm taken on the column. -/
theorem blockColumnLog (m : FVec Ideal S5000 .f32) (p : Fin 5000) (k : Fin 64) :
    broadcastTo S5000x64 (log (shapeCast S5000x1 m shapeCasts_S5000_S5000x1)) broadcasts_S5000x1_S5000x64 (ix2 p k)
      = Ideal.log (m (ix1 p)) :=
  (broadcastTo_a1_ab_apply _ _ p k).trans (congrArg Ideal.log (shapeCast_a_a1_apply m _ p 0))

/-- The bias row copied down the block reads, at `(p, k)`, the row's entry `k`. -/
theorem blockBias (x1 : FVec Ideal S1x64 .f32) (p : Fin 5000) (k : Fin 64) :
    broadcastTo S5000x64 x1 broadcasts_S1x64_S5000x64 (ix2 p k) = x1 (ix2 (0 : Fin 1) k) :=
  broadcastTo_1b_ab_apply _ _ p k

/-- The exponential of a vector, entry by entry. -/
theorem exp_apply {s : Shape} (v : FVec Ideal s .f32) (i : s.Idx) : exp v i = Ideal.exp (v i) := rfl

/-- THE PAYLOAD AT AN ENTRY: entry `(p, q)` of what a point stores is the row function of row `p` of its input
    block plus the bias row, at `q`. -/
theorem pay_apply (x0 : Vec Ideal S5000x64 .f32) (x1 : Vec Ideal S1x64 .f32) (p : Fin 5000) (q : Fin 64) :
    k5_pay1 (F := Ideal) x0 x1 (ix2 p q) = LS (fun k => x0 (ix2 p k) + x1 (ix2 (0 : Fin 1) k)) q := by
  unfold k5_pay1
  simp only [subf_apply, blockColumnLog, blockColumn, addf_apply, blockBias, shapeCast_self]
  rw [blockRowSum]
  simp only [exp_apply, subf_apply, blockColumn, addf_apply, blockBias, shapeCast_self]
  rw [blockRowMax]
  simp only [addf_apply, blockBias]
  rfl

end Payload

/-! ## The reference, row by row -/

section Reference

/-- The reference reduces over the classes too: the shape fact that names the inserted index. -/
theorem reduces_rows : Cert.ReferenceIdeal.S50000x64.Reduces [1] Cert.ReferenceIdeal.S50000 := by decide

/-- The bias, made one row and copied down the 50000 rows, reads at `(r, k)` its entry `k`. -/
theorem bias64_apply (a : FVec Ideal Cert.ReferenceIdeal.S50000x64 .f32) (b : FVec Ideal Cert.ReferenceIdeal.S64 .f32)
    (r : Fin 50000) (k : Fin 64) :
    Cert.Stages.bias64 (F := Ideal) a b (ix2 r k) = a (ix2 r k) + b (ix1 k) := by
  unfold Cert.Stages.bias64
  show a (ix2 r k) + broadcastInDim _ _ _ (broadcastInDim _ _ _ b) (ix2 r k) = _
  refine congrArg (a (ix2 r k) + ·) ?_
  refine (broadcastInDim_apply _ _ _ (ix2 r k) (ix2 (0 : Fin 1) k) fun ax => ?_).trans
    (broadcastInDim_apply _ _ b (ix2 (0 : Fin 1) k) (ix1 k) fun ax => ?_)
  · match ax with
    | ⟨0, _⟩ => rfl
    | ⟨1, _⟩ => rfl
  · match ax with
    | ⟨0, _⟩ => rfl

/-- A per-row value made a column and copied along the 64 classes reads, at `(r, k)`, the value of row `r`. -/
theorem refColumn (m : FVec Ideal Cert.ReferenceIdeal.S50000 .f32) (r : Fin 50000) (k : Fin 64) :
    broadcastInDim Cert.ReferenceIdeal.S50000x64 ![0, 1] Cert.ReferenceIdeal.Gen.bcast_S50000x1_S50000x64_0_1
      (broadcastInDim Cert.ReferenceIdeal.S50000x1 ![0] Cert.ReferenceIdeal.Gen.bcast_S50000_S50000x1_0 m) (ix2 r k) = m (ix1 r) := by
  refine (broadcastInDim_apply _ _ _ (ix2 r k) (ix2 r (0 : Fin 1)) fun ax => ?_).trans
    (broadcastInDim_apply _ _ m (ix2 r (0 : Fin 1)) (ix1 r) fun ax => ?_)
  · match ax with
    | ⟨0, _⟩ => rfl
    | ⟨1, _⟩ => rfl
  · match ax with
    | ⟨0, _⟩ => rfl

/-- The reference's `-∞`, a scalar copied to every row, read at a row. -/
theorem refNegInf (r : Fin 50000) :
    broadcastInDim Cert.ReferenceIdeal.S50000 ![] Cert.ReferenceIdeal.Gen.bcast_S_S50000
      (constant (F := Ideal) Cert.ReferenceIdeal.S_ .f32 0xFF800000#32) (ix1 r) = negInf :=
  broadcastInDim_apply _ _ _ (ix1 r) ix0 (fun ax => ax.elim0)

/-- The reference's max-reduce over the classes, at row `r`, is the maximum of that row's 64 entries from `-∞`. -/
theorem refRowMax (z : FVec Ideal Cert.ReferenceIdeal.S50000x64 .f32) (r : Fin 50000) :
    Host.reduce (FloatOps.maximumf (F := Ideal) (φ := .f32)) z (constant (F := Ideal) Cert.ReferenceIdeal.S_ .f32 0xFF800000#32)
      Cert.ReferenceIdeal.Gen.reducesTo_S50000x64_S50000_d1 Cert.ReferenceIdeal.Gen.h_S_ (ix1 r) = rowMaxE (fun k => z (ix2 r k)) := by
  rw [Host.reduce_eq_fold_single (FloatOps.maximumf (F := Ideal) (φ := .f32)) z _ _ reduces_rows _ (ix1 r)]
  have e : z ∘ reduces_rows.lift (ix1 r) = fun k => z (ix2 r k) := funext fun k => congrArg z (lift_row _ r k)
  rw [e]
  rfl

/-- The reference's row maximum — a max-reduce from `-∞`, then once more against `-∞` — is the row's maximum. -/
theorem rowMax_apply (z : FVec Ideal Cert.ReferenceIdeal.S50000x64 .f32) (r : Fin 50000) :
    Cert.Stages.rowMax (F := Ideal) z (ix1 r) = rowMaxE (fun k => z (ix2 r k)) := by
  unfold Cert.Stages.rowMax
  rw [maximumf_apply, refNegInf r, refRowMax z r]
  exact max_negInf_rowMaxE _

/-- The reference's `z - M` at `(r, k)`. -/
theorem shifted_apply (z : FVec Ideal Cert.ReferenceIdeal.S50000x64 .f32) (r : Fin 50000) (k : Fin 64) :
    Cert.Stages.shifted (F := Ideal) z (ix2 r k) = z (ix2 r k) - rowMaxE (fun k => z (ix2 r k)) := by
  unfold Cert.Stages.shifted
  rw [subf_apply, refColumn _ r k, rowMax_apply z r]

/-- The same column with the logarithm taken on it. -/
theorem refColumnLog (m : FVec Ideal Cert.ReferenceIdeal.S50000 .f32) (r : Fin 50000) (k : Fin 64) :
    broadcastInDim Cert.ReferenceIdeal.S50000x64 ![0, 1] Cert.ReferenceIdeal.Gen.bcast_S50000x1_S50000x64_0_1
      (Host.log (broadcastInDim Cert.ReferenceIdeal.S50000x1 ![0] Cert.ReferenceIdeal.Gen.bcast_S50000_S50000x1_0 m)) (ix2 r k)
      = Ideal.log (m (ix1 r)) := by
  refine (broadcastInDim_apply _ _ _ (ix2 r k) (ix2 r (0 : Fin 1)) fun ax => ?_).trans
    (congrArg Ideal.log (broadcastInDim_apply _ _ m (ix2 r (0 : Fin 1)) (ix1 r) fun ax => ?_))
  · match ax with
    | ⟨0, _⟩ => rfl
    | ⟨1, _⟩ => rfl
  · match ax with
    | ⟨0, _⟩ => rfl

/-- The reference's sum over the classes, from the zero pattern, is the row's sum. -/
theorem rowSum_apply (x : FVec Ideal Cert.ReferenceIdeal.S50000x64 .f32) (r : Fin 50000) :
    Host.reduceAdd (F := Ideal) x (constant (F := Ideal) Cert.ReferenceIdeal.S_ .f32 0x00000000#32)
      Cert.ReferenceIdeal.Gen.reducesTo_S50000x64_S50000_d1 Cert.ReferenceIdeal.Gen.h_S_ (ix1 r) = ∑ k : Fin 64, x (ix2 r k) := by
  show Ideal.hostReduceAdd Cert.ReferenceIdeal.Gen.reducesTo_S50000x64_S50000_d1 x (Ideal.ofBits .f32 0x00000000#32) (ix1 r) = _
  rw [Ideal.hostReduceAdd_single _ reduces_rows, Ideal.ofBits_zero_f32, zero_add]
  exact Finset.sum_congr rfl fun k _ => congrArg x (lift_row _ r k)

/-- The host's exponential of an array, entry by entry. -/
theorem hostExp_apply {s : Shape} (v : FVec Ideal s .f32) (i : s.Idx) : Host.exp v i = Ideal.exp (v i) := rfl

/-- THE REFERENCE AT AN ENTRY: `log_softmax (a + b)` at `(r, j)` is the row function of row `r` of `a` plus the bias, at `j`. -/
theorem ref_apply (a : FVec Ideal Cert.ReferenceIdeal.S50000x64 .f32) (b : FVec Ideal Cert.ReferenceIdeal.S64 .f32)
    (r : Fin 50000) (j : Fin 64) :
    Cert.Stages.logSoftmax (F := Ideal) (Cert.Stages.bias64 (F := Ideal) a b) (ix2 r j)
      = LS (fun k => a (ix2 r k) + b (ix1 k)) j := by
  have hs : ∀ k : Fin 64, Cert.Stages.shifted (F := Ideal) (Cert.Stages.bias64 (F := Ideal) a b) (ix2 r k)
      = (a (ix2 r k) + b (ix1 k)) - rowMaxE (fun k => a (ix2 r k) + b (ix1 k)) := fun k => by
    rw [shifted_apply (Cert.Stages.bias64 (F := Ideal) a b) r k, bias64_apply a b r k]
    exact congrArg (fun f => a (ix2 r k) + b (ix1 k) - rowMaxE f) (funext fun k => bias64_apply a b r k)
  unfold Cert.Stages.logSoftmax
  rw [subf_apply, hs j, refColumnLog _ r j, rowSum_apply _ r]
  simp only [hostExp_apply, hs]
  rfl

end Reference

/-! ## From the ten blocks to the array -/

section Region

-- the TensorCore's buffer contents when a region is entered
variable (V : (c : Dev nD) → (b : Ref sig .tc) → Buf (Elt Ideal) ((c : Thread nD τ).loc b))

/-- A block is read and written from its origin. -/
theorem hz : (![0, 0] : Fin 2 → Nat) = fun _ => 0 := funext fun a => by
  match a with
  | ⟨0, _⟩ => rfl
  | ⟨1, _⟩ => rfl

/-- The index maps over the grid: point `t` takes block `t` of the input's and of the output's rows, all 64
    classes, and the one bias row. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `p` of point `t`'s block is row `5000 t + p` of the array. -/
def rowOf (t : Fin cfg5.N) (p : Fin 5000) : Fin 50000 :=
  ⟨t.val * 5000 + p.val, by have ht : t.val < grid5.N := t.isLt; rw [N_5] at ht; have := p.isLt; omega⟩

/-- WHAT POINT `t` WRITES BACK is block `t` of `log_softmax (a + b)`: the row function is row-local, and row `p`
    of the input block is row `5000 t + p` of `a`. -/
theorem flushed_eq (c : Dev nD) (a : Arr Ideal ⟨Cert.ReferenceIdeal.S50000x64, .f32⟩) (b : Arr Ideal ⟨Cert.ReferenceIdeal.S64, .f32⟩)
    (ha : V c main_v57 = a) (hb : V c main_v58 = shapeCast S1x64 b shapeCasts_S64_S1x64) (t : Fin cfg5.N) :
    (dat5 (F := Ideal) V c).flushed 2 t
      = ((cfg5.win 2).blk t).view.read (Elt Ideal) (Cert.Stages.logSoftmax (F := Ideal) (Cert.Stages.bias64 (F := Ideal) a b)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e0, e1, e2, e3, e4, e5⟩ := idx_facts t
  funext y
  obtain ⟨p, q, rfl⟩ : ∃ (p : Fin 5000) (q : Fin 64), y = ix2 p q := ⟨y 0, y 1, eq_ix2 y⟩
  show k5_pay1 (F := Ideal) (iblk5 V c 0 t) (iblk5 V c 1 t) (ix2 p q)
    = Cert.Stages.logSoftmax (F := Ideal) (Cert.Stages.bias64 (F := Ideal) a b) (((cfg5.win 2).blk t).view.emb (ix2 p q))
  have h2 : ((cfg5.win 2).blk t).view.emb (ix2 p q) = ix2 (rowOf t p) q := by
    funext ax; apply Fin.ext
    match ax with
    | ⟨0, _⟩ => show win5_2.index t (0 : Fin 2) * 5000 + 1 * p.val = t.val * 5000 + p.val; omega
    | ⟨1, _⟩ => show win5_2.index t (1 : Fin 2) * 64 + 1 * q.val = q.val; omega
  have h0 : ∀ k : Fin 64, ((cfg5.win 0).blk t).view.emb (ix2 p k) = ix2 (rowOf t p) k := fun k => by
    funext ax; apply Fin.ext
    match ax with
    | ⟨0, _⟩ => show win5_0.index t (0 : Fin 2) * 5000 + 1 * p.val = t.val * 5000 + p.val; omega
    | ⟨1, _⟩ => show win5_0.index t (1 : Fin 2) * 64 + 1 * k.val = k.val; omega
  have h1 : ∀ k : Fin 64, ((cfg5.win 1).blk t).view.emb (ix2 (0 : Fin 1) k) = ix2 (0 : Fin 1) k := fun k => by
    funext ax; apply Fin.ext
    match ax with
    | ⟨0, _⟩ => show win5_1.index t (0 : Fin 2) * 1 + 1 * 0 = 0; omega
    | ⟨1, _⟩ => show win5_1.index t (1 : Fin 2) * 64 + 1 * k.val = k.val; omega
  refine (pay_apply (iblk5 V c 0 t) (iblk5 V c 1 t) p q).trans ?_
  refine Eq.trans ?_ ((congrArg (Cert.Stages.logSoftmax (F := Ideal) (Cert.Stages.bias64 (F := Ideal) a b)) h2).trans
    (ref_apply a b (rowOf t p) q)).symm
  refine congrArg (LS · q) (funext fun k => congrArg₂ (· + ·) ?_ ?_)
  · show V c main_v57 (((cfg5.win 0).blk t).view.emb (ix2 p k)) = a (ix2 (rowOf t p) k)
    exact (congrFun ha _).trans (congrArg a (h0 k))
  · show V c main_v58 (((cfg5.win 1).blk t).view.emb (ix2 (0 : Fin 1) k)) = b (ix1 k)
    exact (congrFun hb _).trans
      ((congrArg (shapeCast S1x64 b shapeCasts_S64_S1x64) (h1 k)).trans (shapeCast_a_1a_apply b _ 0 k))

/-- An entry of the array is in point `t`'s block iff each coordinate is in the block's range on its axis. -/
theorem mem_blk (t : Fin cfg5.N) (i : S50000x64.Idx) :
    i ∈ ((cfg5.win 2).blk t).view.set ↔ ∀ ax : Fin 2, win5_2.index t ax * S5000x64.size ax ≤ (i ax).val
      ∧ (i ax).val < win5_2.index t ax * S5000x64.size ax + S5000x64.size ax := by
  show i ∈ ((View.whole main_v59).slice (win5_2.rect t)).set ↔ _
  rw [View.set_slice_whole, Rect.mem_set_unit]
  exact Iff.rfl

/-- Every entry of the array is in some point's block: row `r` is in block `r / 5000`. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : grid5.N = 10 := N_5
  obtain ⟨t, ht⟩ : ∃ t : Fin cfg5.N, t.val = (i 0).val / 5000 :=
    ⟨⟨(i 0).val / 5000, by show (i 0).val / 5000 < grid5.N; omega⟩, rfl⟩
  obtain ⟨e0, e1, e2, e3, e4, e5⟩ := idx_facts t
  refine ⟨t, flush5_2 t, ?_⟩
  rw [mem_blk]
  intro ax
  match ax with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 64 ≤ (i 1).val ∧ (i 1).val < win5_2.index t (1 : Fin 2) * 64 + 64
    omega

end Region

end LogSoftmax

-- the TensorCore's buffer contents when a region is entered
variable (V : (c : Dev nD) → (b : Ref sig .tc) → Buf (Elt Ideal) ((c : Thread nD τ).loc b))

/-- Region 5: `log_softmax (agg₂ + b₂)`; the bias arrives reshaped to one row. -/
theorem logsoftmax5_array (c : Dev nD) (a : Arr Ideal ⟨Cert.ReferenceIdeal.S50000x64, .f32⟩) (b : Arr Ideal ⟨Cert.ReferenceIdeal.S64, .f32⟩)
    (ha : V c main_v57 = a) (hb : V c main_v58 = shapeCast S1x64 b shapeCasts_S64_S1x64) :
    (dat5 (F := Ideal) V c).arrAt 2 cfg5.N = Cert.Stages.logSoftmax (F := Ideal) (Cert.Stages.bias64 (F := Ideal) a b) :=
  (dat5 (F := Ideal) V c).arrAt_eq_of_cover 2 _ (fun t _ => LogSoftmax.flushed_eq V c a b ha hb t) LogSoftmax.cover

end Cert.KernelIdeal.RegionValue

end
-- ==== Proof.KernelWalk.lean ====
/-
  The kernel's program read from the launch to its result. Between the launch and the return the TensorCore's buffers
  pass through sixteen boundaries (a host stretch or a region between two of them); at each, the buffers that matter
  are named as functions of the launch arguments: the messages' sources and destinations and their weights, which
  every later stretch reads again; each matrix product (a region); the rows gathered at the sources — where, the
  sources being node ids, `take` is the plain gather —, scaled and summed into the destinations (a host stretch);
  bias and `relu`, or bias and `log_softmax` (a region). The last boundary's result buffer is `Cert.Stages.output`
  of the arguments.
-/
import proofs.«412483_j87093346828457_1_alg».proof.Proof.Gen.KernelIdeal.Frame
import proofs.«412483_j87093346828457_1_alg».proof.Proof.Stages
import proofs.«412483_j87093346828457_1_alg».proof.Proof.TakeGather
import proofs.«412483_j87093346828457_1_alg».proof.Proof.KernelStretches
import proofs.«412483_j87093346828457_1_alg».proof.Proof.RegionMatmul
import proofs.«412483_j87093346828457_1_alg».proof.Proof.RegionBiasRelu
import proofs.«412483_j87093346828457_1_alg».proof.Proof.RegionLogSoftmax

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.KernelIdeal.Stretch Cert.KernelIdeal.RegionValue
open Cert.Stages (Arr)

variable (m : (ℓ : Loc nD τ sig) → Buf (Elt Ideal) ℓ) (ρ : Dev nD → PrngReg)

/-! ## The launch arguments, at their tensor types -/

abbrev aX (c : Dev nD) : Arr Ideal ⟨Cert.ReferenceIdeal.S50000x256, .f32⟩ := m ((c.tc : Thread nD τ).loc main_arg0)
abbrev aE (c : Dev nD) : Arr Ideal ⟨Cert.ReferenceIdeal.S2x800000, .i32⟩ := m ((c.tc : Thread nD τ).loc main_arg1)
abbrev aW0 (c : Dev nD) : Arr Ideal ⟨Cert.ReferenceIdeal.S256x256, .f32⟩ := m ((c.tc : Thread nD τ).loc main_arg2)
abbrev aB0 (c : Dev nD) : Arr Ideal ⟨Cert.ReferenceIdeal.S256, .f32⟩ := m ((c.tc : Thread nD τ).loc main_arg3)
abbrev aW1 (c : Dev nD) : Arr Ideal ⟨Cert.ReferenceIdeal.S256x256, .f32⟩ := m ((c.tc : Thread nD τ).loc main_arg4)
abbrev aB1 (c : Dev nD) : Arr Ideal ⟨Cert.ReferenceIdeal.S256, .f32⟩ := m ((c.tc : Thread nD τ).loc main_arg5)
abbrev aW2 (c : Dev nD) : Arr Ideal ⟨Cert.ReferenceIdeal.S256x64, .f32⟩ := m ((c.tc : Thread nD τ).loc main_arg6)
abbrev aB2 (c : Dev nD) : Arr Ideal ⟨Cert.ReferenceIdeal.S64, .f32⟩ := m ((c.tc : Thread nD τ).loc main_arg7)

/-- The reciprocal root of every node's degree (before the guard for a zero degree). -/
def rsqrtDeg {F : FTy → Type} [FloatOps F] (ei : Arr F ⟨Cert.ReferenceIdeal.S2x800000, .i32⟩) : Arr F ⟨Cert.ReferenceIdeal.S50000, .f32⟩ :=
  Host.rsqrt (Cert.Stages.deg (F := F) ei)

/-- The messages' sources are node ids, on every device: then `take` is the plain row gather. -/
abbrev SrcOK : Prop := ∀ c : Dev nD, Cert.KernelIdeal.TakeValue.InRange (Cert.Stages.src (F := Ideal) (aE m c))

/-! ## A buffer that a stretch or a region does not write keeps its contents -/

/-- No operation of the stretch writes the buffer: the references differ, one by one. -/
local macro "not_written" : tactic => `(tactic| (
  simp only [hostOps0, hostOps0_1, hostOps0_2, hostOps1, hostOps1_1, hostOps3, hostOps3_1, hostOps5, hostOps5_1,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)))
/-- Step back over a host stretch that does not write the buffer. -/
local macro "over_host" : tactic =>
  `(tactic| refine (StableHlo.after_of_forall_not_mem (b := _) _ _ (List.forall_iff_forall_mem.mp (by not_written))).trans ?_)
/-- Step back over a region none of whose arrays is the buffer. -/
local macro "over_region " t:term : tactic => `(tactic| refine (($t) _ (by decide)).trans ?_)

/-! ## The called functions' stretches, read at typed contents -/

section Reads
variable {F : FTy → Type} [FloatOps F] (V : Valuation τ sig (Elt F))

/-- `dinv` from the degree test, the reciprocal root and the zero it finds. -/
theorem dinv_read (p : Arr F ⟨S50000, .i1⟩) (r : Arr F ⟨S50000, .f32⟩) (z : Arr F ⟨S_, .f32⟩)
    (hp : V (Proc.devRef .tc main_v12) = p) (hr : V (Proc.devRef .tc main_v13) = r) (hz : V (Proc.devRef .tc main_cst_2) = z) :
    StableHlo.after hostOps0_1 V (Proc.devRef .tc main_v14) = select p r (broadcastInDim S50000 ![] bcast_S_S50000 (id z)) := by
  refine (where_dinv V).trans ?_
  rw [hp, hr, hz]
  rfl

/-- The first layer's gathered rows from the product and the sources it finds. -/
theorem rows0_read (h : Arr F ⟨S50000x256, .f32⟩) (idx : Arr F ⟨S850000, .i32⟩)
    (hh : V (Proc.devRef .tc main_v30) = h) (hi : V (Proc.devRef .tc main_v3) = idx) :
    StableHlo.after hostOps1 V (Proc.devRef .tc main_v31) = Cert.KernelIdeal.TakeValue.takeFill256 (F := F) h idx := by
  refine (take_layer0 V).trans ?_
  have a1 : (TRef.of (T := ⟨S50000x256, .f32⟩) main_v30).ofBuf (V (Proc.devRef .tc main_v30)) = h := by rw [hh]; rfl
  have a2 : (TRef.of (T := ⟨S850000, .i32⟩) main_v3).ofBuf (V (Proc.devRef .tc main_v3)) = idx := by rw [hi]; rfl
  rw [a1, a2]
  generalize Cert.KernelIdeal.TakeValue.takeFill256 (F := F) h idx = y
  rfl

/-- The second layer's. -/
theorem rows1_read (h : Arr F ⟨S50000x256, .f32⟩) (idx : Arr F ⟨S850000, .i32⟩)
    (hh : V (Proc.devRef .tc main_v40) = h) (hi : V (Proc.devRef .tc main_v3) = idx) :
    StableHlo.after hostOps3 V (Proc.devRef .tc main_v41) = Cert.KernelIdeal.TakeValue.takeFill256 (F := F) h idx := by
  refine (take_layer1 V).trans ?_
  have a1 : (TRef.of (T := ⟨S50000x256, .f32⟩) main_v40).ofBuf (V (Proc.devRef .tc main_v40)) = h := by rw [hh]; rfl
  have a2 : (TRef.of (T := ⟨S850000, .i32⟩) main_v3).ofBuf (V (Proc.devRef .tc main_v3)) = idx := by rw [hi]; rfl
  rw [a1, a2]
  generalize Cert.KernelIdeal.TakeValue.takeFill256 (F := F) h idx = y
  rfl

/-- The last layer's, 64 wide. -/
theorem rows2_read (h : Arr F ⟨S50000x64, .f32⟩) (idx : Arr F ⟨S850000, .i32⟩)
    (hh : V (Proc.devRef .tc main_v50) = h) (hi : V (Proc.devRef .tc main_v3) = idx) :
    StableHlo.after hostOps5 V (Proc.devRef .tc main_v51) = Cert.KernelIdeal.TakeValue.takeFill64 (F := F) h idx := by
  refine (take_layer2 V).trans ?_
  have a1 : (TRef.of (T := ⟨S50000x64, .f32⟩) main_v50).ofBuf (V (Proc.devRef .tc main_v50)) = h := by rw [hh]; rfl
  have a2 : (TRef.of (T := ⟨S850000, .i32⟩) main_v3).ofBuf (V (Proc.devRef .tc main_v3)) = idx := by rw [hi]; rfl
  rw [a1, a2]
  generalize Cert.KernelIdeal.TakeValue.takeFill64 (F := F) h idx = y
  rfl

end Reads

/-! ## Before the first region -/

theorem W1_src (c : Dev nD) : W1 m ρ c (Proc.devRef .tc main_v3) = Cert.Stages.src (F := Ideal) (aE m c) := first_src (W0 m ρ c)
theorem W1_dst (c : Dev nD) : W1 m ρ c (Proc.devRef .tc main_v6) = Cert.Stages.dst (F := Ideal) (aE m c) := first_dst (W0 m ρ c)
theorem W1_degPos (c : Dev nD) : W1 m ρ c (Proc.devRef .tc main_v12) =
    cmpf (F := Ideal) .ogt (Cert.Stages.deg (F := Ideal) (aE m c)) (broadcastInDim S50000 ![] bcast_S_S50000 (constant S_ .f32 0x00000000#32)) :=
  first_degPos (W0 m ρ c)
theorem W1_rsqrtDeg (c : Dev nD) : W1 m ρ c (Proc.devRef .tc main_v13) = rsqrtDeg (F := Ideal) (aE m c) :=
  first_rsqrtDeg (W0 m ρ c)
theorem W1_zero (c : Dev nD) : W1 m ρ c (Proc.devRef .tc main_cst_2) = constant (F := Ideal) S_ .f32 0x00000000#32 := first_zero (W0 m ρ c)

theorem W2_dinv (c : Dev nD) : W2 m ρ c (Proc.devRef .tc main_v14) = Cert.Stages.dinv (F := Ideal) (aE m c) := by
  refine (dinv_read (W1 m ρ c) _ _ _ (W1_degPos m ρ c) (W1_rsqrtDeg m ρ c) (W1_zero m ρ c)).trans ?_
  rfl
theorem W2_src (c : Dev nD) : W2 m ρ c (Proc.devRef .tc main_v3) = Cert.Stages.src (F := Ideal) (aE m c) := by
  over_host; exact W1_src m ρ c
theorem W2_dst (c : Dev nD) : W2 m ρ c (Proc.devRef .tc main_v6) = Cert.Stages.dst (F := Ideal) (aE m c) := by
  over_host; exact W1_dst m ρ c

theorem W3_norm (c : Dev nD) : W3 m ρ c (Proc.devRef .tc main_v29) = Cert.Stages.norm (F := Ideal) (aE m c) := by
  refine (norm_of (W2 m ρ c)).trans ?_
  rw [W2_dinv, W2_src, W2_dst]
  rfl
theorem W3_src (c : Dev nD) : W3 m ρ c (Proc.devRef .tc main_v3) = Cert.Stages.src (F := Ideal) (aE m c) := by
  over_host; exact W2_src m ρ c
theorem W3_dst (c : Dev nD) : W3 m ρ c (Proc.devRef .tc main_v6) = Cert.Stages.dst (F := Ideal) (aE m c) := by
  over_host; exact W2_dst m ρ c
/-- An argument is as launched at the first region's entry. -/
theorem W3_arg (b : Ref sig .tc) (hb : b = main_arg0 ∨ b = main_arg2 ∨ b = main_arg3 ∨ b = main_arg4 ∨ b = main_arg5 ∨ b = main_arg6 ∨ b = main_arg7)
    (c : Dev nD) : W3 m ρ c (Proc.devRef .tc b) = m ((c.tc : Thread nD τ).loc b) := by
  rcases hb with rfl | rfl | rfl | rfl | rfl | rfl | rfl <;> (over_host; over_host; over_host; rfl)

/-! ## The first layer -/

theorem W4_prod (c : Dev nD) : W4 m ρ c (Proc.devRef .tc main_v30) = Cert.Stages.matmul256 (F := Ideal) (aX m c) (aW0 m c) :=
  (W4_arr m ρ c 2).trans (matmul0_array (V3 m ρ) c _ _ (W3_arg m ρ main_arg0 (by simp) c) (W3_arg m ρ main_arg2 (by simp) c))
theorem W4_src (c : Dev nD) : W4 m ρ c (Proc.devRef .tc main_v3) = Cert.Stages.src (F := Ideal) (aE m c) := by
  over_region (W4_of_ne m ρ c); exact W3_src m ρ c
theorem W4_dst (c : Dev nD) : W4 m ρ c (Proc.devRef .tc main_v6) = Cert.Stages.dst (F := Ideal) (aE m c) := by
  over_region (W4_of_ne m ρ c); exact W3_dst m ρ c
theorem W4_norm (c : Dev nD) : W4 m ρ c (Proc.devRef .tc main_v29) = Cert.Stages.norm (F := Ideal) (aE m c) := by
  over_region (W4_of_ne m ρ c); exact W3_norm m ρ c
/-- A later argument is as launched after the first region's row gather. -/
theorem W5_arg (b : Ref sig .tc) (hb : b = main_arg3 ∨ b = main_arg4 ∨ b = main_arg5 ∨ b = main_arg6 ∨ b = main_arg7)
    (c : Dev nD) : W5 m ρ c (Proc.devRef .tc b) = m ((c.tc : Thread nD τ).loc b) := by
  rcases hb with rfl | rfl | rfl | rfl | rfl <;>
    (over_host; over_region (W4_of_ne m ρ c); exact W3_arg m ρ _ (by simp) c)

theorem W5_rows (hsrc : SrcOK m) (c : Dev nD) : W5 m ρ c (Proc.devRef .tc main_v31) =
    Host.gather Cert.ReferenceIdeal.gather_S50000x256_S850000x1_S850000x256_1_0_n_n_0_1_1256 (Cert.Stages.matmul256 (F := Ideal) (aX m c) (aW0 m c))
      (Cert.Stages.wrap (F := Ideal) (Cert.Stages.src (F := Ideal) (aE m c))) := by
  exact (rows0_read (W4 m ρ c) _ _ (W4_prod m ρ c) (W4_src m ρ c)).trans (Cert.KernelIdeal.TakeValue.takeFill256_eq (F := Ideal) _ _ (hsrc c))
theorem W5_dst (c : Dev nD) : W5 m ρ c (Proc.devRef .tc main_v6) = Cert.Stages.dst (F := Ideal) (aE m c) := by
  over_host; exact W4_dst m ρ c
theorem W5_norm (c : Dev nD) : W5 m ρ c (Proc.devRef .tc main_v29) = Cert.Stages.norm (F := Ideal) (aE m c) := by
  over_host; exact W4_norm m ρ c
theorem W5_src (c : Dev nD) : W5 m ρ c (Proc.devRef .tc main_v3) = Cert.Stages.src (F := Ideal) (aE m c) := by
  over_host; exact W4_src m ρ c

theorem W6_agg (hsrc : SrcOK m) (c : Dev nD) : W6 m ρ c (Proc.devRef .tc main_v37) =
    Cert.Stages.prop256 (F := Ideal) (aE m c) (Cert.Stages.matmul256 (F := Ideal) (aX m c) (aW0 m c)) := by
  refine (agg_layer0 (W5 m ρ c)).trans ?_
  rw [W5_dst, W5_rows m ρ hsrc, W5_norm]
  rfl
theorem W6_biasRow (c : Dev nD) : W6 m ρ c (Proc.devRef .tc main_v38) = shapeCast S1x256 (aB0 m c) shapeCasts_S256_S1x256 := by
  refine (biasRow_layer0 (W5 m ρ c)).trans ?_
  rw [W5_arg m ρ main_arg3 (by simp) c]

theorem W7_hidden0 (hsrc : SrcOK m) (c : Dev nD) : W7 m ρ c (Proc.devRef .tc main_v39) = Cert.Stages.hidden0 (F := Ideal) (aX m c) (aE m c) (aW0 m c) (aB0 m c) :=
  (W7_arr m ρ c 2).trans (biasrelu1_array (V6 m ρ) c _ _ (W6_agg m ρ hsrc c) (W6_biasRow m ρ c))

/-- What the second layer reads again, as it stands after the first layer's regions. -/
theorem W7_src (c : Dev nD) : W7 m ρ c (Proc.devRef .tc main_v3) = Cert.Stages.src (F := Ideal) (aE m c) := by
  over_region (W7_of_ne m ρ c); over_host; exact W5_src m ρ c
theorem W7_dst (c : Dev nD) : W7 m ρ c (Proc.devRef .tc main_v6) = Cert.Stages.dst (F := Ideal) (aE m c) := by
  over_region (W7_of_ne m ρ c); over_host; exact W5_dst m ρ c
theorem W7_norm (c : Dev nD) : W7 m ρ c (Proc.devRef .tc main_v29) = Cert.Stages.norm (F := Ideal) (aE m c) := by
  over_region (W7_of_ne m ρ c); over_host; exact W5_norm m ρ c
theorem W7_arg (b : Ref sig .tc) (hb : b = main_arg4 ∨ b = main_arg5 ∨ b = main_arg6 ∨ b = main_arg7)
    (c : Dev nD) : W7 m ρ c (Proc.devRef .tc b) = m ((c.tc : Thread nD τ).loc b) := by
  rcases hb with rfl | rfl | rfl | rfl <;>
    (over_region (W7_of_ne m ρ c); over_host; exact W5_arg m ρ _ (by simp) c)

/-! ## The second layer -/

theorem W8_prod (hsrc : SrcOK m) (c : Dev nD) : W8 m ρ c (Proc.devRef .tc main_v40) =
    Cert.Stages.matmul256 (F := Ideal) (Cert.Stages.hidden0 (F := Ideal) (aX m c) (aE m c) (aW0 m c) (aB0 m c)) (aW1 m c) :=
  (W8_arr m ρ c 2).trans (matmul2_array (V7 m ρ) c _ _ (W7_hidden0 m ρ hsrc c) (W7_arg m ρ main_arg4 (by simp) c))
theorem W8_src (c : Dev nD) : W8 m ρ c (Proc.devRef .tc main_v3) = Cert.Stages.src (F := Ideal) (aE m c) := by
  over_region (W8_of_ne m ρ c); exact W7_src m ρ c
theorem W8_dst (c : Dev nD) : W8 m ρ c (Proc.devRef .tc main_v6) = Cert.Stages.dst (F := Ideal) (aE m c) := by
  over_region (W8_of_ne m ρ c); exact W7_dst m ρ c
theorem W8_norm (c : Dev nD) : W8 m ρ c (Proc.devRef .tc main_v29) = Cert.Stages.norm (F := Ideal) (aE m c) := by
  over_region (W8_of_ne m ρ c); exact W7_norm m ρ c
theorem W9_arg (b : Ref sig .tc) (hb : b = main_arg5 ∨ b = main_arg6 ∨ b = main_arg7)
    (c : Dev nD) : W9 m ρ c (Proc.devRef .tc b) = m ((c.tc : Thread nD τ).loc b) := by
  rcases hb with rfl | rfl | rfl <;>
    (over_host; over_region (W8_of_ne m ρ c); exact W7_arg m ρ _ (by simp) c)

theorem W9_rows (hsrc : SrcOK m) (c : Dev nD) : W9 m ρ c (Proc.devRef .tc main_v41) =
    Host.gather Cert.ReferenceIdeal.gather_S50000x256_S850000x1_S850000x256_1_0_n_n_0_1_1256
      (Cert.Stages.matmul256 (F := Ideal) (Cert.Stages.hidden0 (F := Ideal) (aX m c) (aE m c) (aW0 m c) (aB0 m c)) (aW1 m c))
      (Cert.Stages.wrap (F := Ideal) (Cert.Stages.src (F := Ideal) (aE m c))) := by
  exact (rows1_read (W8 m ρ c) _ _ (W8_prod m ρ hsrc c) (W8_src m ρ c)).trans (Cert.KernelIdeal.TakeValue.takeFill256_eq (F := Ideal) _ _ (hsrc c))
theorem W9_dst (c : Dev nD) : W9 m ρ c (Proc.devRef .tc main_v6) = Cert.Stages.dst (F := Ideal) (aE m c) := by
  over_host; exact W8_dst m ρ c
theorem W9_norm (c : Dev nD) : W9 m ρ c (Proc.devRef .tc main_v29) = Cert.Stages.norm (F := Ideal) (aE m c) := by
  over_host; exact W8_norm m ρ c
theorem W9_src (c : Dev nD) : W9 m ρ c (Proc.devRef .tc main_v3) = Cert.Stages.src (F := Ideal) (aE m c) := by
  over_host; exact W8_src m ρ c

theorem W10_agg (hsrc : SrcOK m) (c : Dev nD) : W10 m ρ c (Proc.devRef .tc main_v47) =
    Cert.Stages.prop256 (F := Ideal) (aE m c)
      (Cert.Stages.matmul256 (F := Ideal) (Cert.Stages.hidden0 (F := Ideal) (aX m c) (aE m c) (aW0 m c) (aB0 m c)) (aW1 m c)) := by
  refine (agg_layer1 (W9 m ρ c)).trans ?_
  rw [W9_dst, W9_rows m ρ hsrc, W9_norm]
  rfl
theorem W10_biasRow (c : Dev nD) : W10 m ρ c (Proc.devRef .tc main_v48) = shapeCast S1x256 (aB1 m c) shapeCasts_S256_S1x256 := by
  refine (biasRow_layer1 (W9 m ρ c)).trans ?_
  rw [W9_arg m ρ main_arg5 (by simp) c]

theorem W11_hidden1 (hsrc : SrcOK m) (c : Dev nD) : W11 m ρ c (Proc.devRef .tc main_v49) =
    Cert.Stages.hidden1 (F := Ideal) (aX m c) (aE m c) (aW0 m c) (aB0 m c) (aW1 m c) (aB1 m c) :=
  (W11_arr m ρ c 2).trans (biasrelu3_array (V10 m ρ) c _ _ (W10_agg m ρ hsrc c) (W10_biasRow m ρ c))
theorem W11_src (c : Dev nD) : W11 m ρ c (Proc.devRef .tc main_v3) = Cert.Stages.src (F := Ideal) (aE m c) := by
  over_region (W11_of_ne m ρ c); over_host; exact W9_src m ρ c
theorem W11_dst (c : Dev nD) : W11 m ρ c (Proc.devRef .tc main_v6) = Cert.Stages.dst (F := Ideal) (aE m c) := by
  over_region (W11_of_ne m ρ c); over_host; exact W9_dst m ρ c
theorem W11_norm (c : Dev nD) : W11 m ρ c (Proc.devRef .tc main_v29) = Cert.Stages.norm (F := Ideal) (aE m c) := by
  over_region (W11_of_ne m ρ c); over_host; exact W9_norm m ρ c
theorem W11_arg (b : Ref sig .tc) (hb : b = main_arg6 ∨ b = main_arg7)
    (c : Dev nD) : W11 m ρ c (Proc.devRef .tc b) = m ((c.tc : Thread nD τ).loc b) := by
  rcases hb with rfl | rfl <;>
    (over_region (W11_of_ne m ρ c); over_host; exact W9_arg m ρ _ (by simp) c)

/-! ## The last layer -/

theorem W12_prod (hsrc : SrcOK m) (c : Dev nD) : W12 m ρ c (Proc.devRef .tc main_v50) =
    Cert.Stages.matmul64 (F := Ideal) (Cert.Stages.hidden1 (F := Ideal) (aX m c) (aE m c) (aW0 m c) (aB0 m c) (aW1 m c) (aB1 m c)) (aW2 m c) :=
  (W12_arr m ρ c 2).trans (matmul4_array (V11 m ρ) c _ _ (W11_hidden1 m ρ hsrc c) (W11_arg m ρ main_arg6 (by simp) c))
theorem W12_src (c : Dev nD) : W12 m ρ c (Proc.devRef .tc main_v3) = Cert.Stages.src (F := Ideal) (aE m c) := by
  over_region (W12_of_ne m ρ c); exact W11_src m ρ c
theorem W12_dst (c : Dev nD) : W12 m ρ c (Proc.devRef .tc main_v6) = Cert.Stages.dst (F := Ideal) (aE m c) := by
  over_region (W12_of_ne m ρ c); exact W11_dst m ρ c
theorem W12_norm (c : Dev nD) : W12 m ρ c (Proc.devRef .tc main_v29) = Cert.Stages.norm (F := Ideal) (aE m c) := by
  over_region (W12_of_ne m ρ c); exact W11_norm m ρ c

theorem W13_rows (hsrc : SrcOK m) (c : Dev nD) : W13 m ρ c (Proc.devRef .tc main_v51) =
    Host.gather Cert.ReferenceIdeal.gather_S50000x64_S850000x1_S850000x64_1_0_n_n_0_1_164
      (Cert.Stages.matmul64 (F := Ideal) (Cert.Stages.hidden1 (F := Ideal) (aX m c) (aE m c) (aW0 m c) (aB0 m c) (aW1 m c) (aB1 m c)) (aW2 m c))
      (Cert.Stages.wrap (F := Ideal) (Cert.Stages.src (F := Ideal) (aE m c))) := by
  exact (rows2_read (W12 m ρ c) _ _ (W12_prod m ρ hsrc c) (W12_src m ρ c)).trans (Cert.KernelIdeal.TakeValue.takeFill64_eq (F := Ideal) _ _ (hsrc c))
theorem W13_dst (c : Dev nD) : W13 m ρ c (Proc.devRef .tc main_v6) = Cert.Stages.dst (F := Ideal) (aE m c) := by
  over_host; exact W12_dst m ρ c
theorem W13_norm (c : Dev nD) : W13 m ρ c (Proc.devRef .tc main_v29) = Cert.Stages.norm (F := Ideal) (aE m c) := by
  over_host; exact W12_norm m ρ c
theorem W13_arg7 (c : Dev nD) : W13 m ρ c (Proc.devRef .tc main_arg7) = m ((c.tc : Thread nD τ).loc main_arg7) := by
  over_host; over_region (W12_of_ne m ρ c); exact W11_arg m ρ _ (by simp) c

theorem W14_agg (hsrc : SrcOK m) (c : Dev nD) : W14 m ρ c (Proc.devRef .tc main_v57) =
    Cert.Stages.prop64 (F := Ideal) (aE m c)
      (Cert.Stages.matmul64 (F := Ideal) (Cert.Stages.hidden1 (F := Ideal) (aX m c) (aE m c) (aW0 m c) (aB0 m c) (aW1 m c) (aB1 m c)) (aW2 m c)) := by
  refine (agg_layer2 (W13 m ρ c)).trans ?_
  rw [W13_dst, W13_rows m ρ hsrc, W13_norm]
  rfl
theorem W14_biasRow (c : Dev nD) : W14 m ρ c (Proc.devRef .tc main_v58) = shapeCast S1x64 (aB2 m c) shapeCasts_S64_S1x64 := by
  refine (biasRow_layer2 (W13 m ρ c)).trans ?_
  rw [W13_arg7]

/-- The kernel's result: after the last region the result buffer holds the network's output of the launch arguments. -/
theorem W15_output (hsrc : SrcOK m) (c : Dev nD) : W15 m ρ c (Proc.devRef .tc main_v59) =
    Cert.Stages.output (F := Ideal) (aX m c) (aE m c) (aW0 m c) (aB0 m c) (aW1 m c) (aB1 m c) (aW2 m c) (aB2 m c) :=
  (W15_arr m ρ c 2).trans (logsoftmax5_array (V14 m ρ) c _ _ (W14_agg m ρ hsrc c) (W14_biasRow m ρ c))

end Cert.KernelIdeal.Walk

end
-- ==== Proof.RefStretchOps.lean ====
import proofs.«412483_j87093346828457_1_alg».proof.Proof.Gen.ReferenceIdeal
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- Operations 1 to 18 of the program. The edge list with one self-loop per node appended (sources, destinations), the in-degree of every node as a scatter-add of ones, the comparison of the degree with zero and its inverse square root. -/
def sA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- Operations 19 to 21 of the program. The inverse square root of the degree where the degree is positive, zero elsewhere. -/
def sB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 22 to 40 of the program. The weight of every message: the two gathers of the scaled degree at the wrapped sources and destinations, multiplied. -/
def sC : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- Operation 41 of the program. The first layer's matrix product. -/
def sD : List (HloOp τ sig (Elt F)) :=
  [ binary main_arg0 main_arg2 main_v30 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 42 to 57 of the program. The first propagation: the gather of rows at the wrapped sources, scaled by the weights, scatter-added into the destination rows. -/
def sE : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- Operations 58 to 60 of the program. The first layer's bias added to every row. -/
def sF : List (HloOp τ sig (Elt F)) :=
  [ unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)) ]

/-- Operations 61 to 63 of the program. The first layer's maximum with zero. -/
def sG : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf ]

/-- Operation 64 of the program. The second layer's matrix product. -/
def sH : List (HloOp τ sig (Elt F)) :=
  [ binary main_v47 main_arg4 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 65 to 80 of the program. The second propagation. -/
def sI : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x256 ![0, 1] bcast_S850000x1_S850000x256_0_1 : (⟨S850000x1, .f32⟩ : BufTy).Contents (Elt F) → (⟨S850000x256, .f32⟩ : BufTy).Contents (Elt F)),
    binary main_v55 main_v57 main_v58 (mulf : (⟨S850000x256, .f32⟩ : BufTy).Contents (Elt F) → (⟨S850000x256, .f32⟩ : BufTy).Contents (Elt F) → (⟨S850000x256, .f32⟩ : BufTy).Contents (Elt F)),
    nullary main_cst_11 (constant S_ .f32 0x00000000#32),
    unary main_cst_11 main_v59 (broadcastInDim S50000x256 ![] bcast_S_S50000x256 : (⟨S_, .f32⟩ : BufTy).Contents (Elt F) → (⟨S50000x256, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- Operations 81 to 83 of the program. The second layer's bias added to every row. -/
def sJ : List (HloOp τ sig (Elt F)) :=
  [ unary main_arg5 main_v62 (broadcastInDim S1x256 ![1] bcast_S256_S1x256_1 : (⟨S256, .f32⟩ : BufTy).Contents (Elt F) → (⟨S1x256, .f32⟩ : BufTy).Contents (Elt F)),
    unary main_v62 main_v63 (broadcastInDim S50000x256 ![0, 1] bcast_S1x256_S50000x256_0_1 : (⟨S1x256, .f32⟩ : BufTy).Contents (Elt F) → (⟨S50000x256, .f32⟩ : BufTy).Contents (Elt F)),
    binary main_v61 main_v63 main_v64 (addf : (⟨S50000x256, .f32⟩ : BufTy).Contents (Elt F) → (⟨S50000x256, .f32⟩ : BufTy).Contents (Elt F) → (⟨S50000x256, .f32⟩ : BufTy).Contents (Elt F)) ]

/-- Operations 84 to 86 of the program. The second layer's maximum with zero. -/
def sK : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v64) (TRef.of (T := ⟨S50000x256, .f32⟩) main_call2_v0) (TRef.of (T := ⟨S50000x256, .f32⟩) main_v65) maximumf ]

/-- Operation 87 of the program. The third layer's matrix product. -/
def sL : List (HloOp τ sig (Elt F)) :=
  [ binary main_v65 main_arg6 main_v66 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)) ]

/-- Operations 88 to 103 of the program. The third propagation, on 64-wide rows. -/
def sM : List (HloOp τ sig (Elt F)) :=
  [ nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x64 ![0, 1] bcast_S850000x1_S850000x64_0_1 : (⟨S850000x1, .f32⟩ : BufTy).Contents (Elt F) → (⟨S850000x64, .f32⟩ : BufTy).Contents (Elt F)),
    binary main_v73 main_v75 main_v76 (mulf : (⟨S850000x64, .f32⟩ : BufTy).Contents (Elt F) → (⟨S850000x64, .f32⟩ : BufTy).Contents (Elt F) → (⟨S850000x64, .f32⟩ : BufTy).Contents (Elt F)),
    nullary main_cst_14 (constant S_ .f32 0x00000000#32),
    unary main_cst_14 main_v77 (broadcastInDim S50000x64 ![] bcast_S_S50000x64 : (⟨S_, .f32⟩ : BufTy).Contents (Elt F) → (⟨S50000x64, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- Operations 104 to 106 of the program. The third layer's bias added to every row. -/
def sN : List (HloOp τ sig (Elt F)) :=
  [ unary main_arg7 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v79 main_v81 main_v82 (addf : (⟨S50000x64, .f32⟩ : BufTy).Contents (Elt F) → (⟨S50000x64, .f32⟩ : BufTy).Contents (Elt F) → (⟨S50000x64, .f32⟩ : BufTy).Contents (Elt F)) ]

/-- Operations 107 to 121 of the program. The logarithm of the softmax along the class axis. -/
def sO : List (HloOp τ sig (Elt F)) :=
  [ TRef.nullary (TRef.of (T := ⟨S_, .f32⟩) main_call3_cst) (constant S_ .f32 0xFF800000#32),
    TRef.binary (TRef.of (T := ⟨S50000x64, .f32⟩) main_v82) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v82) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v83) subf ]

end Cert.ReferenceIdeal.Staged

end
-- ==== Proof.RefStaged.lean ====
/-
  The reference program's run, read stretch by stretch. Its @main is one straight line of host operations: the edge
  list with self-loops and the normalisation first, then three times a matrix product, a row gather scaled by the
  normalisation and scatter-added into the destination rows, a bias; `relu` after the first two, `log_softmax` after
  the third. Each stretch's result is one of the functions of `Cert.Stages` of the stretch's inputs, so the result
  buffer ends at `Cert.Stages.output` of the arguments, and no operation writes an argument.
-/
import proofs.«412483_j87093346828457_1_alg».proof.Proof.RefRunP
import proofs.«412483_j87093346828457_1_alg».proof.Proof.Stages
import proofs.«412483_j87093346828457_1_alg».proof.Proof.RefStretchOps
import Idealize.ShloMosaic.Lib.StableHlo.Run
import Idealize.ShloMosaic.Lib.Pipeline.Frame

set_option maxRecDepth 16384

noncomputable section

namespace Cert.ReferenceIdeal.Staged

open Idealize.ShloMosaic Idealize.ShloMosaic.TcCoe Idealize.SL.Sem Idealize.ShloMosaic.StableHlo
open Cert.ReferenceIdeal Cert.ReferenceIdeal.Gen Cert.ReferenceIdeal.ValueP

open Cert.Stages (Arr)

variable {F : FTy → Type} [FloatOps F]

/-! ## The program's operations, stretch by stretch -/

/-- The program's operations are the stretches laid end to end. -/
theorem ops_eq : (ops : List (HloOp τ sig (Elt F))) = sA ++ (sB ++ (sC ++ (sD ++ (sE ++ (sF ++ (sG ++ (sH ++ (sI ++ (sJ ++ (sK ++ (sL ++ (sM ++ (sN ++ sO))))))))))))) := rfl

/-- The contents after the whole program are the contents after the stretches, one after the other. -/
theorem after_ops (V : Valuation τ sig (Elt F)) :
    after ops V = after sO (after sN (after sM (after sL (after sK (after sJ (after sI (after sH (after sG (after sF (after sE
      (after sD (after sC (after sB (after sA V)))))))))))))) := by
  rw [ops_eq]
  simp only [after_append]

/-- Transport to a buffer's own type and back is the identity. -/
theorem ofBuf_toBuf {sig : RefSig} {Val : EltTy → Type} {T : BufTy} (x : TRef sig T) (v : T.Contents Val) : x.ofBuf (x.toBuf v) = v := by
  obtain ⟨r, h, _, _⟩ := x
  subst h
  rfl

/-- One propagation of 256-wide rows, the sources, destinations and weights of the messages given as arrays:
    row n of the result is the sum over the messages e with destination n of weight e times row (source e) of h. -/
def prop256At (s d : Arr F ⟨S850000, .i32⟩) (w : Arr F ⟨S850000, .f32⟩) (h : Arr F ⟨S50000x256, .f32⟩) : Arr F ⟨S50000x256, .f32⟩ :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 d)
    (mulf (Host.gather gather_S50000x256_S850000x1_S850000x256_1_0_n_n_0_1_1256 h (Cert.Stages.wrap s))
      (broadcastInDim S850000x256 ![0, 1] bcast_S850000x1_S850000x256_0_1
        (broadcastInDim S850000x1 ![0] bcast_S850000_S850000x1_0 w)))

/-- The same for 64-wide rows. -/
def prop64At (s d : Arr F ⟨S850000, .i32⟩) (w : Arr F ⟨S850000, .f32⟩) (h : Arr F ⟨S50000x64, .f32⟩) : Arr F ⟨S50000x64, .f32⟩ :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h (Cert.Stages.wrap s))
      (broadcastInDim S850000x64 ![0, 1] bcast_S850000x1_S850000x64_0_1
        (broadcastInDim S850000x1 ![0] bcast_S850000_S850000x1_0 w)))

/-- With the messages of an edge list the propagation is the network's. -/
theorem prop256At_eq (e : Arr F ⟨S2x800000, .i32⟩) (h : Arr F ⟨S50000x256, .f32⟩) :
    prop256At (Cert.Stages.src e) (Cert.Stages.dst e) (Cert.Stages.norm e) h = Cert.Stages.prop256 e h := rfl

theorem prop64At_eq (e : Arr F ⟨S2x800000, .i32⟩) (h : Arr F ⟨S50000x64, .f32⟩) :
    prop64At (Cert.Stages.src e) (Cert.Stages.dst e) (Cert.Stages.norm e) h = Cert.Stages.prop64 e h := rfl

/-! ## Each stretch from any contents: what it leaves in the buffers read later -/

section Stretches

variable (V : Valuation τ sig (Elt F))

theorem sA_v3 : after sA V (Proc.devRef .tc main_v3) = Cert.Stages.src (F := F) (V (Proc.devRef .tc main_arg1)) := by
  delta sA
  after_results_simp
  rfl

theorem sA_v6 : after sA V (Proc.devRef .tc main_v6) = Cert.Stages.dst (F := F) (V (Proc.devRef .tc main_arg1)) := by
  delta sA
  after_results_simp
  rfl

theorem sA_v12 : after sA V (Proc.devRef .tc main_v12) =
    cmpf (F := F) .ogt (Cert.Stages.deg (F := F) (V (Proc.devRef .tc main_arg1))) (broadcastInDim S50000 ![] bcast_S_S50000 (constant S_ .f32 0x00000000#32)) := by
  delta sA
  after_results_simp
  rfl

theorem sA_v13 : after sA V (Proc.devRef .tc main_v13) = Host.rsqrt (Cert.Stages.deg (F := F) (V (Proc.devRef .tc main_arg1))) := by
  delta sA
  after_results_simp
  rfl

theorem sA_cst2 : after sA V (Proc.devRef .tc main_cst_2) = constant (F := F) S_ .f32 0x00000000#32 := by
  delta sA
  after_results_simp

theorem sB_v14 : after sB V (Proc.devRef .tc main_v14) =
    (TRef.of (T := ⟨S50000, .f32⟩) main_v14).toBuf (select ((TRef.of (T := ⟨S50000, .i1⟩) main_v12).ofBuf (V (Proc.devRef .tc main_v12)))
      ((TRef.of (T := ⟨S50000, .f32⟩) main_v13).ofBuf (V (Proc.devRef .tc main_v13)))
      (broadcastInDim S50000 ![] bcast_S_S50000 (id ((TRef.of (T := ⟨S_, .f32⟩) main_cst_2).ofBuf (V (Proc.devRef .tc main_cst_2)))))) := by
  delta sB
  after_results_simp
  simp only [ofBuf_toBuf]

theorem sC_v29 : after sC V (Proc.devRef .tc main_v29) =
    mulf (Host.gather gather_S50000_S850000x1_S850000_n_0_n_n_0_1_1 (V (Proc.devRef .tc main_v14)) (Cert.Stages.wrap (F := F) (V (Proc.devRef .tc main_v3))))
      (Host.gather gather_S50000_S850000x1_S850000_n_0_n_n_0_1_1 (V (Proc.devRef .tc main_v14)) (Cert.Stages.wrap (F := F) (V (Proc.devRef .tc main_v6)))) := by
  delta sC
  after_results_simp
  rfl

theorem sD_v30 : after sD V (Proc.devRef .tc main_v30) =
    Cert.Stages.matmul256 (F := F) (V (Proc.devRef .tc main_arg0)) (V (Proc.devRef .tc main_arg2)) := by
  delta sD
  after_results_simp
  rfl

theorem sE_v43 : after sE V (Proc.devRef .tc main_v43) =
    prop256At (F := F) (V (Proc.devRef .tc main_v3)) (V (Proc.devRef .tc main_v6)) (V (Proc.devRef .tc main_v29)) (V (Proc.devRef .tc main_v30)) := by
  delta sE
  after_results_simp
  rfl

theorem sF_v46 : after sF V (Proc.devRef .tc main_v46) =
    addf (F := F) (V (Proc.devRef .tc main_v43))
      (broadcastInDim S50000x256 ![0, 1] bcast_S1x256_S50000x256_0_1 (broadcastInDim S1x256 ![1] bcast_S256_S1x256_1 (V (Proc.devRef .tc main_arg3)))) := by
  delta sF
  after_results_simp

theorem sG_v47 : after sG V (Proc.devRef .tc main_v47) =
    (TRef.of (T := ⟨S50000x256, .f32⟩) main_v47).toBuf (maximumf (F := F) ((TRef.of (T := ⟨S50000x256, .f32⟩) main_v46).ofBuf (V (Proc.devRef .tc main_v46)))
      (broadcastInDim S50000x256 ![] bcast_S_S50000x256 (constant S_ .f32 0x00000000#32))) := by
  delta sG
  after_results_simp
  simp only [ofBuf_toBuf]

theorem sH_v48 : after sH V (Proc.devRef .tc main_v48) =
    Cert.Stages.matmul256 (F := F) (V (Proc.devRef .tc main_v47)) (V (Proc.devRef .tc main_arg4)) := by
  delta sH
  after_results_simp
  rfl

theorem sI_v61 : after sI V (Proc.devRef .tc main_v61) =
    prop256At (F := F) (V (Proc.devRef .tc main_v3)) (V (Proc.devRef .tc main_v6)) (V (Proc.devRef .tc main_v29)) (V (Proc.devRef .tc main_v48)) := by
  delta sI
  after_results_simp
  rfl

theorem sJ_v64 : after sJ V (Proc.devRef .tc main_v64) =
    addf (F := F) (V (Proc.devRef .tc main_v61))
      (broadcastInDim S50000x256 ![0, 1] bcast_S1x256_S50000x256_0_1 (broadcastInDim S1x256 ![1] bcast_S256_S1x256_1 (V (Proc.devRef .tc main_arg5)))) := by
  delta sJ
  after_results_simp

theorem sK_v65 : after sK V (Proc.devRef .tc main_v65) =
    (TRef.of (T := ⟨S50000x256, .f32⟩) main_v65).toBuf (maximumf (F := F) ((TRef.of (T := ⟨S50000x256, .f32⟩) main_v64).ofBuf (V (Proc.devRef .tc main_v64)))
      (broadcastInDim S50000x256 ![] bcast_S_S50000x256 (constant S_ .f32 0x00000000#32))) := by
  delta sK
  after_results_simp
  simp only [ofBuf_toBuf]

theorem sL_v66 : after sL V (Proc.devRef .tc main_v66) =
    Cert.Stages.matmul64 (F := F) (V (Proc.devRef .tc main_v65)) (V (Proc.devRef .tc main_arg6)) := by
  delta sL
  after_results_simp
  rfl

theorem sM_v79 : after sM V (Proc.devRef .tc main_v79) =
    prop64At (F := F) (V (Proc.devRef .tc main_v3)) (V (Proc.devRef .tc main_v6)) (V (Proc.devRef .tc main_v29)) (V (Proc.devRef .tc main_v66)) := by
  delta sM
  after_results_simp
  rfl

theorem sN_v82 : after sN V (Proc.devRef .tc main_v82) =
    Cert.Stages.bias64 (F := F) (V (Proc.devRef .tc main_v79)) (V (Proc.devRef .tc main_arg7)) := by
  delta sN
  after_results_simp
  rfl

set_option maxHeartbeats 4000000 in
theorem sO_v83 : after sO V (Proc.devRef .tc main_v83) =
    (TRef.of (T := ⟨S50000x64, .f32⟩) main_v83).toBuf (Cert.Stages.logSoftmax (F := F) ((TRef.of (T := ⟨S50000x64, .f32⟩) main_v82).ofBuf (V (Proc.devRef .tc main_v82)))) := by
  delta sO
  after_results_simp
  simp only [ofBuf_toBuf]
  unfold Cert.Stages.logSoftmax Cert.Stages.shifted Cert.Stages.rowMax
  rfl

end Stretches

/-! ## The run, stretch after stretch, from the launch contents -/

section Chain

/-- No operation of the stretch at hand writes the buffer. -/
local macro "not_written" : tactic => `(tactic| (
  simp only [sA, sB, sC, sD, sE, sF, sG, sH, sI, sJ, sK, sL, sM, sN, sO,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)))
/-- A buffer the last stretch does not write holds what it held before that stretch. -/
local macro "down" : tactic =>
  `(tactic| refine (StableHlo.after_of_forall_not_mem (b := _) _ _ (List.forall_iff_forall_mem.mp (by not_written))).trans ?_)

variable (m : (ℓ : Loc nD τ sig) → Buf (Elt F) ℓ) (c : Dev nD)

/-- The eight launch arguments of device c: node features, edge list, then weight matrix and bias of each layer. -/
abbrev a0 : Arr F ⟨S50000x256, .f32⟩ := m ((c.tc : Thread nD τ).loc main_arg0)
abbrev a1 : Arr F ⟨S2x800000, .i32⟩ := m ((c.tc : Thread nD τ).loc main_arg1)
abbrev a2 : Arr F ⟨S256x256, .f32⟩ := m ((c.tc : Thread nD τ).loc main_arg2)
abbrev a3 : Arr F ⟨S256, .f32⟩ := m ((c.tc : Thread nD τ).loc main_arg3)
abbrev a4 : Arr F ⟨S256x256, .f32⟩ := m ((c.tc : Thread nD τ).loc main_arg4)
abbrev a5 : Arr F ⟨S256, .f32⟩ := m ((c.tc : Thread nD τ).loc main_arg5)
abbrev a6 : Arr F ⟨S256x64, .f32⟩ := m ((c.tc : Thread nD τ).loc main_arg6)
abbrev a7 : Arr F ⟨S64, .f32⟩ := m ((c.tc : Thread nD τ).loc main_arg7)

/-- The contents of device c's buffers at launch and after each stretch. -/
abbrev W0 : Valuation τ sig (Elt F) := launchContents m c
abbrev W1 : Valuation τ sig (Elt F) := after sA (W0 m c)
abbrev W2 : Valuation τ sig (Elt F) := after sB (W1 m c)
abbrev W3 : Valuation τ sig (Elt F) := after sC (W2 m c)
abbrev W4 : Valuation τ sig (Elt F) := after sD (W3 m c)
abbrev W5 : Valuation τ sig (Elt F) := after sE (W4 m c)
abbrev W6 : Valuation τ sig (Elt F) := after sF (W5 m c)
abbrev W7 : Valuation τ sig (Elt F) := after sG (W6 m c)
abbrev W8 : Valuation τ sig (Elt F) := after sH (W7 m c)
abbrev W9 : Valuation τ sig (Elt F) := after sI (W8 m c)
abbrev W10 : Valuation τ sig (Elt F) := after sJ (W9 m c)
abbrev W11 : Valuation τ sig (Elt F) := after sK (W10 m c)
abbrev W12 : Valuation τ sig (Elt F) := after sL (W11 m c)
abbrev W13 : Valuation τ sig (Elt F) := after sM (W12 m c)
abbrev W14 : Valuation τ sig (Elt F) := after sN (W13 m c)
abbrev W15 : Valuation τ sig (Elt F) := after sO (W14 m c)

/-! ### The edge list with self-loops, the degree and the weights -/

theorem W1_v3 : W1 m c (Proc.devRef .tc main_v3) = Cert.Stages.src (F := F) (a1 m c) := sA_v3 _
theorem W1_v6 : W1 m c (Proc.devRef .tc main_v6) = Cert.Stages.dst (F := F) (a1 m c) := sA_v6 _
theorem W1_v12 : W1 m c (Proc.devRef .tc main_v12) =
    cmpf (F := F) .ogt (Cert.Stages.deg (F := F) (a1 m c)) (broadcastInDim S50000 ![] bcast_S_S50000 (constant S_ .f32 0x00000000#32)) := sA_v12 _
theorem W1_v13 : W1 m c (Proc.devRef .tc main_v13) = Host.rsqrt (Cert.Stages.deg (F := F) (a1 m c)) := sA_v13 _
theorem W1_cst2 : W1 m c (Proc.devRef .tc main_cst_2) = constant (F := F) S_ .f32 0x00000000#32 := sA_cst2 _

theorem W2_v14 : W2 m c (Proc.devRef .tc main_v14) = Cert.Stages.dinv (F := F) (a1 m c) :=
  (sB_v14 _).trans (by rw [W1_v12, W1_v13, W1_cst2]; rfl)
theorem W2_v3 : W2 m c (Proc.devRef .tc main_v3) = Cert.Stages.src (F := F) (a1 m c) := by down; exact W1_v3 m c
theorem W2_v6 : W2 m c (Proc.devRef .tc main_v6) = Cert.Stages.dst (F := F) (a1 m c) := by down; exact W1_v6 m c

theorem W3_v29 : W3 m c (Proc.devRef .tc main_v29) = Cert.Stages.norm (F := F) (a1 m c) :=
  (sC_v29 _).trans (by rw [W2_v14, W2_v3, W2_v6]; rfl)

/-! ### The first layer -/

theorem W3_arg0 : W3 m c (Proc.devRef .tc main_arg0) = a0 m c := by (iterate 3 down); rfl
theorem W3_arg2 : W3 m c (Proc.devRef .tc main_arg2) = a2 m c := by (iterate 3 down); rfl
theorem W4_v30 : W4 m c (Proc.devRef .tc main_v30) = Cert.Stages.matmul256 (F := F) (a0 m c) (a2 m c) :=
  (sD_v30 _).trans (by rw [W3_arg0, W3_arg2])
theorem W4_v3 : W4 m c (Proc.devRef .tc main_v3) = Cert.Stages.src (F := F) (a1 m c) := by (iterate 2 down); exact W2_v3 m c
theorem W4_v6 : W4 m c (Proc.devRef .tc main_v6) = Cert.Stages.dst (F := F) (a1 m c) := by (iterate 2 down); exact W2_v6 m c
theorem W4_v29 : W4 m c (Proc.devRef .tc main_v29) = Cert.Stages.norm (F := F) (a1 m c) := by down; exact W3_v29 m c
theorem W5_v43 : W5 m c (Proc.devRef .tc main_v43) = Cert.Stages.prop256 (F := F) (a1 m c) (Cert.Stages.matmul256 (F := F) (a0 m c) (a2 m c)) :=
  (sE_v43 _).trans (by rw [W4_v3, W4_v6, W4_v29, W4_v30, prop256At_eq])
theorem W5_arg3 : W5 m c (Proc.devRef .tc main_arg3) = a3 m c := by (iterate 5 down); rfl
theorem W6_v46 : W6 m c (Proc.devRef .tc main_v46) =
    addf (F := F) (Cert.Stages.prop256 (F := F) (a1 m c) (Cert.Stages.matmul256 (F := F) (a0 m c) (a2 m c)))
      (broadcastInDim S50000x256 ![0, 1] bcast_S1x256_S50000x256_0_1 (broadcastInDim S1x256 ![1] bcast_S256_S1x256_1 (a3 m c))) :=
  (sF_v46 _).trans (by rw [W5_v43, W5_arg3])
theorem W7_v47 : W7 m c (Proc.devRef .tc main_v47) = Cert.Stages.hidden0 (F := F) (a0 m c) (a1 m c) (a2 m c) (a3 m c) :=
  (sG_v47 _).trans (by rw [W6_v46]; rfl)

/-! ### The second layer -/

theorem W7_arg4 : W7 m c (Proc.devRef .tc main_arg4) = a4 m c := by (iterate 7 down); rfl
theorem W8_v48 : W8 m c (Proc.devRef .tc main_v48) =
    Cert.Stages.matmul256 (F := F) (Cert.Stages.hidden0 (F := F) (a0 m c) (a1 m c) (a2 m c) (a3 m c)) (a4 m c) :=
  (sH_v48 _).trans (by rw [W7_v47, W7_arg4])
theorem W8_v3 : W8 m c (Proc.devRef .tc main_v3) = Cert.Stages.src (F := F) (a1 m c) := by (iterate 4 down); exact W4_v3 m c
theorem W8_v6 : W8 m c (Proc.devRef .tc main_v6) = Cert.Stages.dst (F := F) (a1 m c) := by (iterate 4 down); exact W4_v6 m c
theorem W8_v29 : W8 m c (Proc.devRef .tc main_v29) = Cert.Stages.norm (F := F) (a1 m c) := by (iterate 4 down); exact W4_v29 m c
theorem W9_v61 : W9 m c (Proc.devRef .tc main_v61) =
    Cert.Stages.prop256 (F := F) (a1 m c) (Cert.Stages.matmul256 (F := F) (Cert.Stages.hidden0 (F := F) (a0 m c) (a1 m c) (a2 m c) (a3 m c)) (a4 m c)) :=
  (sI_v61 _).trans (by rw [W8_v3, W8_v6, W8_v29, W8_v48, prop256At_eq])
theorem W9_arg5 : W9 m c (Proc.devRef .tc main_arg5) = a5 m c := by (iterate 9 down); rfl
theorem W10_v64 : W10 m c (Proc.devRef .tc main_v64) =
    addf (F := F) (Cert.Stages.prop256 (F := F) (a1 m c) (Cert.Stages.matmul256 (F := F) (Cert.Stages.hidden0 (F := F) (a0 m c) (a1 m c) (a2 m c) (a3 m c)) (a4 m c)))
      (broadcastInDim S50000x256 ![0, 1] bcast_S1x256_S50000x256_0_1 (broadcastInDim S1x256 ![1] bcast_S256_S1x256_1 (a5 m c))) :=
  (sJ_v64 _).trans (by rw [W9_v61, W9_arg5])
theorem W11_v65 : W11 m c (Proc.devRef .tc main_v65) = Cert.Stages.hidden1 (F := F) (a0 m c) (a1 m c) (a2 m c) (a3 m c) (a4 m c) (a5 m c) :=
  (sK_v65 _).trans (by rw [W10_v64]; rfl)

/-! ### The third layer and the logarithm of the softmax -/

theorem W11_arg6 : W11 m c (Proc.devRef .tc main_arg6) = a6 m c := by (iterate 11 down); rfl
theorem W12_v66 : W12 m c (Proc.devRef .tc main_v66) =
    Cert.Stages.matmul64 (F := F) (Cert.Stages.hidden1 (F := F) (a0 m c) (a1 m c) (a2 m c) (a3 m c) (a4 m c) (a5 m c)) (a6 m c) :=
  (sL_v66 _).trans (by rw [W11_v65, W11_arg6])
theorem W12_v3 : W12 m c (Proc.devRef .tc main_v3) = Cert.Stages.src (F := F) (a1 m c) := by (iterate 4 down); exact W8_v3 m c
theorem W12_v6 : W12 m c (Proc.devRef .tc main_v6) = Cert.Stages.dst (F := F) (a1 m c) := by (iterate 4 down); exact W8_v6 m c
theorem W12_v29 : W12 m c (Proc.devRef .tc main_v29) = Cert.Stages.norm (F := F) (a1 m c) := by (iterate 4 down); exact W8_v29 m c
theorem W13_v79 : W13 m c (Proc.devRef .tc main_v79) =
    Cert.Stages.prop64 (F := F) (a1 m c) (Cert.Stages.matmul64 (F := F) (Cert.Stages.hidden1 (F := F) (a0 m c) (a1 m c) (a2 m c) (a3 m c) (a4 m c) (a5 m c)) (a6 m c)) :=
  (sM_v79 _).trans (by rw [W12_v3, W12_v6, W12_v29, W12_v66, prop64At_eq])
theorem W13_arg7 : W13 m c (Proc.devRef .tc main_arg7) = a7 m c := by (iterate 13 down); rfl
theorem W14_v82 : W14 m c (Proc.devRef .tc main_v82) =
    Cert.Stages.bias64 (F := F) (Cert.Stages.prop64 (F := F) (a1 m c) (Cert.Stages.matmul64 (F := F) (Cert.Stages.hidden1 (F := F) (a0 m c) (a1 m c) (a2 m c) (a3 m c) (a4 m c) (a5 m c)) (a6 m c))) (a7 m c) :=
  (sN_v82 _).trans (by rw [W13_v79, W13_arg7])
theorem W15_v83 : W15 m c (Proc.devRef .tc main_v83) =
    Cert.Stages.output (F := F) (a0 m c) (a1 m c) (a2 m c) (a3 m c) (a4 m c) (a5 m c) (a6 m c) (a7 m c) :=
  (sO_v83 _).trans (by rw [W14_v82]; rfl)

/-! ### No operation writes an argument -/

theorem W15_arg0 : W15 m c (Proc.devRef .tc main_arg0) = a0 m c := by (iterate 15 down); rfl
theorem W15_arg1 : W15 m c (Proc.devRef .tc main_arg1) = a1 m c := by (iterate 15 down); rfl
theorem W15_arg2 : W15 m c (Proc.devRef .tc main_arg2) = a2 m c := by (iterate 15 down); rfl
theorem W15_arg3 : W15 m c (Proc.devRef .tc main_arg3) = a3 m c := by (iterate 15 down); rfl
theorem W15_arg4 : W15 m c (Proc.devRef .tc main_arg4) = a4 m c := by (iterate 15 down); rfl
theorem W15_arg5 : W15 m c (Proc.devRef .tc main_arg5) = a5 m c := by (iterate 15 down); rfl
theorem W15_arg6 : W15 m c (Proc.devRef .tc main_arg6) = a6 m c := by (iterate 15 down); rfl
theorem W15_arg7 : W15 m c (Proc.devRef .tc main_arg7) = a7 m c := by (iterate 15 down); rfl

/-- The contents after the whole program are the contents after the last stretch. -/
theorem after_ops_W15 (b : DevRef τ sig) : after ops (launchContents m c) b = W15 m c b := congrFun (after_ops _) b

end Chain

/-- Every weakly fair execution of the reference's @main terminates with the result buffer at the network's output
    of the launch arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = Cert.Stages.output (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_)
    (run_seq scopedRefs_eq scopedSems_eq defs main (fun _ => ops) main_eq (fun _ => ops_sub) m ρ)
  exact ⟨(h c main_v83).trans ((after_ops_W15 m c _).trans (W15_v83 m c)),
    (h c main_arg0).trans ((after_ops_W15 m c _).trans (W15_arg0 m c)),
    (h c main_arg1).trans ((after_ops_W15 m c _).trans (W15_arg1 m c)),
    (h c main_arg2).trans ((after_ops_W15 m c _).trans (W15_arg2 m c)),
    (h c main_arg3).trans ((after_ops_W15 m c _).trans (W15_arg3 m c)),
    (h c main_arg4).trans ((after_ops_W15 m c _).trans (W15_arg4 m c)),
    (h c main_arg5).trans ((after_ops_W15 m c _).trans (W15_arg5 m c)),
    (h c main_arg6).trans ((after_ops_W15 m c _).trans (W15_arg6 m c)),
    (h c main_arg7).trans ((after_ops_W15 m c _).trans (W15_arg7 m c))⟩

end Cert.ReferenceIdeal.Staged

end
-- ==== Proof.lean ====
/-
  A three-layer graph-convolution network on 50000 nodes and 800000 edges: the kernel's program (six tiled regions —
  three matrix products, two bias-and-relu, one bias-and-log-softmax — among stretches of host operations that build
  the normalised edge list and do each layer's row gather, scaling and scatter-add) against the plain reference.

  Both compute, over the extended reals, `log_softmax (Â·relu (Â·relu (Â·x·W₀ + b₀)·W₁ + b₁)·W₂ + b₂)` with
  `Â = D^(-1/2) (A + I) D^(-1/2)` applied as a gather of rows at the messages' sources, a scaling, and a scatter-add
  into the destinations. The programs agree operation by operation except in three places: the kernel's matrix
  products are tiled over the node axis with the operands narrowed first (over the extended reals the narrowing is
  the identity and a tiled product is the product); its bias-and-activation stages are tiled regions (entry by entry
  the same values); and its row gather is `take`, which replaces a row by a NaN where the source id is not a node id,
  while the reference's indexing gathers whatever row the clamped id names. Where the edge list's source row holds
  node ids — the precondition's added conjunct — `take`'s mask is all ones and the two gathers are one. No law of
  arithmetic is needed beyond that: both sides are the same composition, `Cert.Stages.output`, of the arguments.

  The three frames: the kernel's two are the launch theorem over its segments; the reference's is its run with the
  result dropped. The idealization rewrote nothing, so `preserves` is trivial.
-/
import proofs.«412483_j87093346828457_1_alg».proof.Defs
import proofs.«412483_j87093346828457_1_alg».proof.Proof.Gen.Kernel
import proofs.«412483_j87093346828457_1_alg».proof.Proof.Gen.Kernel.Frame
import proofs.«412483_j87093346828457_1_alg».proof.Proof.Gen.KernelIdeal
import proofs.«412483_j87093346828457_1_alg».proof.Proof.Gen.KernelIdeal.Frame
import proofs.«412483_j87093346828457_1_alg».proof.Proof.Gen.ReferenceIdeal
import proofs.«412483_j87093346828457_1_alg».proof.Proof.Gen.Pre_finite_inputs
import proofs.«412483_j87093346828457_1_alg».proof.Proof.KernelRun
import proofs.«412483_j87093346828457_1_alg».proof.Proof.KernelWalk
import proofs.«412483_j87093346828457_1_alg».proof.Proof.TakeGather
import proofs.«412483_j87093346828457_1_alg».proof.Proof.RefStaged
import Idealize.ShloMosaic.Adequacy
import Idealize.ShloMosaic.Init

noncomputable section

namespace Cert.Proof

open Idealize.ShloMosaic Idealize.SL.Sem

/-- The word-level kernel runs, nothing faulting, its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs, its arguments unchanged: its run with the result dropped. -/
theorem frame_reference : Cert.frame_ReferenceIdeal := fun m ρ _ =>
  (θ_run Cert.ReferenceIdeal.defs _ _).mono (fun _ h c => (h c).2) (Cert.ReferenceIdeal.Staged.run (F := Ideal) m ρ)

/-- Nothing was rewritten when the kernel was read over the extended reals. -/
theorem preserves : Cert.preserves_Kernel_KernelIdeal := trivial

/-- From memories that agree on the arguments, with the edge list's source row holding node ids, both programs end
    with the network's output of those arguments in their result buffers. -/
theorem algebraic : Cert.algebraic_KernelIdeal_ReferenceIdeal := by
  intro m ρ m' ρ' hpre hagree
  have hsrc : Cert.KernelIdeal.Walk.SrcOK m := fun c =>
    Cert.KernelIdeal.TakeValue.src_inRange (F := Ideal) _ (Cert.KernelIdeal.TakeValue.edgeRow0_inRange_of_pre m hpre c)
  refine ⟨fun c => Cert.Stages.output (F := Ideal) (Cert.KernelIdeal.Walk.aX m c) (Cert.KernelIdeal.Walk.aE m c)
      (Cert.KernelIdeal.Walk.aW0 m c) (Cert.KernelIdeal.Walk.aB0 m c) (Cert.KernelIdeal.Walk.aW1 m c) (Cert.KernelIdeal.Walk.aB1 m c)
      (Cert.KernelIdeal.Walk.aW2 m c) (Cert.KernelIdeal.Walk.aB2 m c), ?_, ?_⟩
  · exact (θ_run Cert.KernelIdeal.defs _ _).mono
      (fun r h c => ⟨(h c).1.trans (Cert.KernelIdeal.Walk.W15_output m ρ hsrc c), (h c).2⟩)
      (Cert.KernelIdeal.Gen.run_named m ρ)
  · refine (θ_run Cert.ReferenceIdeal.defs _ _).mono (fun r h c => ⟨(h c).1.trans ?_, (h c).2⟩)
      (Cert.ReferenceIdeal.Staged.run (F := Ideal) m' ρ')
    obtain ⟨h0, h1, h2, h3, h4, h5, h6, h7⟩ := hagree c
    rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
